-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S16384x16384 : Shape := ⟨2, ![16384, 16384]⟩
abbrev S256x64 : Shape := ⟨2, ![256, 64]⟩
abbrev S64 : Shape := ⟨1, ![64]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S16384x256 .f32) (main_arg1 : FVec F S16384x16384 .f32) (main_arg2 : FVec F S256x64 .f32) (main_arg3 : FVec F S64 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S256x64 .f32 := Host.absf main_arg2
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S16384x256 : Shape := ⟨2, ![16384, 256]⟩
abbrev S16384x16384 : Shape := ⟨2, ![16384, 16384]⟩
abbrev S256x64 : Shape := ⟨2, ![256, 64]⟩
abbrev S64 : Shape := ⟨1, ![64]⟩
abbrev S16384x64 : Shape := ⟨2, ![16384, 64]⟩
abbrev S2048x256 : Shape := ⟨2, ![2048, 256]⟩
abbrev S2048x64 : Shape := ⟨2, ![2048, 64]⟩
abbrev S1x64 : Shape := ⟨2, ![1, 64]⟩
abbrev S1024x2048 : Shape := ⟨2, ![1024, 2048]⟩
abbrev S1024x64 : Shape := ⟨2, ![1024, 64]⟩

abbrev nBuf : Space → Nat
  | .hbm => 7
  | .vmem => 15
  | .smem => 0
  | _ => 0

abbrev bufTy : (tb : Table) → Fin (tcTables nBuf tb) → BufTy
  | .hbm, ⟨0, _⟩ => ⟨S16384x256, .f32⟩
  | .hbm, ⟨1, _⟩ => ⟨S16384x16384, .f32⟩
  | .hbm, ⟨2, _⟩ => ⟨S256x64, .f32⟩
  | .hbm, ⟨3, _⟩ => ⟨S64, .f32⟩
  | .hbm, ⟨4, _⟩ => ⟨S16384x64, .f32⟩
  | .hbm, ⟨5, _⟩ => ⟨S1x64, .f32⟩
  | .hbm, ⟨6, _⟩ => ⟨S16384x64, .f32⟩
  | .local _ .vmem, ⟨0, _⟩ => ⟨S2048x256, .f32⟩
  | .local _ .vmem, ⟨1, _⟩ => ⟨S2048x256, .f32⟩
  | .local _ .vmem, ⟨2, _⟩ => ⟨S256x64, .f32⟩
  | .local _ .vmem, ⟨3, _⟩ => ⟨S2048x64, .f32⟩
  | .local _ .vmem, ⟨4, _⟩ => ⟨S2048x64, .f32⟩
  | .local _ .vmem, ⟨5, _⟩ => ⟨S1024x2048, .f32⟩
  | .local _ .vmem, ⟨6, _⟩ => ⟨S1024x2048, .f32⟩
  | .local _ .vmem, ⟨7, _⟩ => ⟨S2048x64, .f32⟩
  | .local _ .vmem, ⟨8, _⟩ => ⟨S2048x64, .f32⟩
  | .local _ .vmem, ⟨9, _⟩ => ⟨S1024x64, .f32⟩
  | .local _ .vmem, ⟨10, _⟩ => ⟨S1024x64, .f32⟩
  | .local _ .vmem, ⟨11, _⟩ => ⟨S1x64, .f32⟩
  | .local _ .vmem, ⟨12, _⟩ => ⟨S1024x64, .f32⟩
  | .local _ .vmem, ⟨13, _⟩ => ⟨S1024x64, .f32⟩
  | .local _ .vmem, ⟨14, _⟩ => ⟨S1024x64, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 8], ![false, false]⟩

def k1_cond2 (i : grid1.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1024x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S2048x64_S2048x64_0_0 : ∀ a, (![0, 0] : Fin 2 → Nat) a + S2048x64.size a ≤ S2048x64.size a
  h_S2048x64 : 0 < S2048x64.numel
  shapeCasts_S64_S1x64 : S64.ShapeCasts S1x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x2048_S1024x2048_0_0 : ∀ a, (![0, 0] : Fin 2 → Nat) a + S1024x2048.size a ≤ S1024x2048.size a
  h_S1024x2048 : 0 < S1024x2048.numel
  shapeCasts_S2048x64_S2048x64 : S2048x64.ShapeCasts S2048x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  dot_S2048x256_S256x64_S2048x64_1_0_0_1_n_n_wf : DotDims.WF S2048x256 S256x64 S2048x64 [1] [0] [0] [1] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S16384x256.size a
  hwx0_0 : ∀ i : grid0.Coords, EltTy.bits .f32 = 32 ∨ (Rect.block (s := S16384x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S16384x64.size a
  hwx0_2 : ∀ i : grid0.Coords, EltTy.bits .f32 = 32 ∨ (Rect.block (s := S16384x64) S2048x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S16384x16384.size a
  hwx1_0 : ∀ i : grid1.Coords, EltTy.bits .f32 = 32 ∨ (Rect.block (s := S16384x16384) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x64.size a ≤ S16384x64.size a
  hwx1_1 : ∀ i : grid1.Coords, EltTy.bits .f32 = 32 ∨ (Rect.block (s := S16384x64) S2048x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x64.size a ≤ S16384x64.size a
  hwx1_2 : ∀ i : grid1.Coords, EltTy.bits .f32 = 32 ∨ (Rect.block (s := S16384x64) S1024x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x64.size a ≤ S16384x64.size a
  hwx1_4 : ∀ i : grid1.Coords, EltTy.bits .f32 = 32 ∨ (Rect.block (s := S16384x64) S1024x64.size (cc1_transform_4 i) (hinb1_4 i)).WholeWords (EltTy.packing .f32)

variable [Facts₀]

def dot_S2048x256_S256x64_S2048x64_1_0_0_1_n_n : DotDims S2048x256 S256x64 S2048x64 where
  lhsContracting := [1]
  rhsContracting := [0]
  lhsNonContracting := [0]
  rhsNonContracting := [1]
  lhsBatch := []
  rhsBatch := []
  wf := dot_S2048x256_S256x64_S2048x64_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1024x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S16384x256 : Shape := ⟨2, ![16384, 256]⟩
abbrev S16384x16384 : Shape := ⟨2, ![16384, 16384]⟩
abbrev S256x64 : Shape := ⟨2, ![256, 64]⟩
abbrev S64 : Shape := ⟨1, ![64]⟩
abbrev S16384x64 : Shape := ⟨2, ![16384, 64]⟩
abbrev S1x64 : Shape := ⟨2, ![1, 64]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x16384, .f32⟩
  | .hbm, ⟨2, _⟩ => ⟨S256x64, .f32⟩
  | .hbm, ⟨3, _⟩ => ⟨S64, .f32⟩
  | .hbm, ⟨4, _⟩ => ⟨S16384x64, .f32⟩
  | .hbm, ⟨5, _⟩ => ⟨S16384x64, .f32⟩
  | .hbm, ⟨6, _⟩ => ⟨S16384x64, .f32⟩
  | .hbm, ⟨7, _⟩ => ⟨S1x64, .f32⟩
  | .hbm, ⟨8, _⟩ => ⟨S16384x64, .f32⟩
  | .hbm, ⟨9, _⟩ => ⟨S16384x64, .f32⟩
  | .hbm, ⟨10, _⟩ => ⟨S_, .f32⟩
  | .hbm, ⟨11, _⟩ => ⟨S16384x64, .f32⟩
  | .hbm, ⟨12, _⟩ => ⟨S16384x64, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_cst : Ref sig .tc := ⟨.hbm, 10, rfl⟩
abbrev main_call0_v0 : Ref sig .tc := ⟨.hbm, 11, rfl⟩
abbrev main_v6 : Ref sig .tc := ⟨.hbm, 12, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  dot_S16384x256_S256x64_S16384x64_1_0_0_1_n_n_wf : DotDims.WF S16384x256 S256x64 S16384x64 [1] [0] [0] [1] [] []
  dot_S16384x16384_S16384x64_S16384x64_1_0_0_1_n_n_wf : DotDims.WF S16384x16384 S16384x64 S16384x64 [1] [0] [0] [1] [] []

variable [Facts₀]

def dot_S16384x256_S256x64_S16384x64_1_0_0_1_n_n : DotDims S16384x256 S256x64 S16384x64 where
  lhsContracting := [1]
  rhsContracting := [0]
  lhsNonContracting := [0]
  rhsNonContracting := [1]
  lhsBatch := []
  rhsBatch := []
  wf := dot_S16384x256_S256x64_S16384x64_1_0_0_1_n_n_wf
def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf

class Facts : Prop extends Facts₀ where

variable [Facts]
-- ==== Proof.SupportRegion.lean ====
/-
  The first kernel region: support = x · W, one row block of 2048 rows per grid point.
  Stated at a parameter V, the contents of the core's buffers when the region is entered: each window's
  block at a point, what the body leaves in the output window's staging buffer (the one store's payload
  over the two input blocks), the proof data of the pipeline, and the body obligation at every point.
-/
import proofs.«114250_j52536039965101_1_alg».proof.Proof.Gen.KernelIdeal.Launch
import proofs.«114250_j52536039965101_1_alg».proof.Proof.Gen.KernelIdeal.Skeleton
import proofs.«114250_j52536039965101_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The body's three accesses: each a whole staging buffer. -/
abbrev rX : Rect S2048x256 := Rect.unit (s := S2048x256) ![0, 0] S2048x256.size inb_S2048x256_S2048x256_0_0
abbrev rW : Rect S256x64 := Rect.unit (s := S256x64) ![0, 0] S256x64.size inb_S256x64_S256x64_0_0
abbrev rO : Rect S2048x64 := Rect.unit (s := S2048x64) ![0, 0] S2048x64.size inb_S2048x64_S2048x64_0_0

/-- What the body leaves in the output window's staging buffer: its one store, the product of the x block and W. -/
def out0_2 (x0 : Vec F S2048x256 .f32) (x1 : Vec F S256x64 .f32) : Vec F S2048x64 .f32 :=
  View.canon [⟨rO, k0_pay1 (View.ld x0 rX) (View.ld x1 rW)⟩]

/-- The proof data of the first pipeline on core c: arrays as the region finds them; after the body each input's
    buffer at its block, the output's at the product of the two input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## The input windows: each current staging buffer holds the block of the point -/

/-- The x window is an input the body never writes, idle nowhere and cut nowhere; so at every point its current
    staging buffer holds that point's 2048 rows of x, as read off the array at entry. -/
theorem xBlock_staged (c : Dev nD) (t : Fin cfg0.N) (d) : (dat0 V c).before 0 t d = iblk0 V c 0 t := by
  have hkeep : ∀ t, (cfg0.win 0).cut (cfg0.grid.coords t) ((dat0 V c).after 0 t) = (dat0 V c).blockOf 0 t := by
    intro t; rw [after0_0]; unfold Dat.blockOf iblk0; rw [A_eq0]; try rfl
  rw [(dat0 V c).before_in_eq_fetched 0 rfl (fun _ => rfl) (fun _ _ _ => rfl) hkeep t d]
  unfold Dat.fetched Dat.blockOf iblk0; rw [A_eq0]; try rfl

/-- W is one block, fetched at the first point only and left in place by the body; its block index never moves, so
    at every later point the staging buffer still holds W, as read off the array at entry. -/
theorem wBlock_staged (c : Dev nD) (t : Fin cfg0.N) (d) : (dat0 V c).before 1 t d = iblk0 V c 1 t := by
  have hkeep : ∀ t, (cfg0.win 1).cut (cfg0.grid.coords t) ((dat0 V c).after 1 t) = (dat0 V c).blockOf 1 t := by
    intro t; rw [after0_1]; unfold Dat.blockOf iblk0; rw [A_eq0]; try rfl
  rw [(dat0 V c).before_in_eq_fetched 1 rfl (fun _ => rfl) (fun _ _ _ => rfl) hkeep t d]
  unfold Dat.fetched Dat.blockOf iblk0; rw [A_eq0]; try rfl

/-! ## The output window: the one store fills the whole staging buffer -/

/-- The store's rectangle is the whole 2048 x 64 buffer: every index lies in it. -/
theorem product_covers (p : Vec F S2048x64 .f32) (y : S2048x64.Idx) :
    ∃ pc ∈ ([⟨rO, p⟩] : List (View.Piece (Elt F) S2048x64 .f32)), y ∈ pc.1.set :=
  View.cover_of_tiled [⟨rO, p⟩] S2048x64.size (by rfl) y

/-! ## The body's triple -/

set_option maxHeartbeats 1000000 in
/-- The body on three whole staging memrefs, the first at an x block `x0`, the second at W's contents `x1`, the third
    at anything: it reads both inputs, reads the third once (the value goes nowhere), and overwrites the whole third
    with the product's payload over the two reads. The inputs are returned as found, the third at `out0_2 x0 x1`,
    whatever it held before: the store covers it. -/
theorem support_kernel_sound (c : Dev nD) (E : Set ℕ) (i : grid0.Coords)
    (arg1 : Memref sig .tc .vmem S2048x256 .f32) (harg1 : arg1.IsWhole) (arg2 : Memref sig .tc .vmem S256x64 .f32) (harg2 : arg2.IsWhole)
    (arg3 : Memref sig .tc .vmem S2048x64 .f32) (harg3 : arg3.IsWhole)
    (x0 : Vec F S2048x256 .f32) (x1 : Vec F S256x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__support_kernel i arg1 harg1 arg2 harg2 arg3 harg3) K := by
  simp only [cc0__support_kernel_eq_skeleton]; unfold cc0__support_kernel_skel
  unfold owns
  iintro ⟨⟨%fx, %hfx, Hx⟩, ⟨%fw, %hfw, Hw⟩, ⟨%d, %fo, -, Ho⟩, Hk⟩
  subst hfx hfw
  sl_exec
  sl_step
  iapply Hk
  isplitl [Hx]
  · iexists fx; isplitr; · ipureintro; rfl
    iexact Hx
  isplitl [Hw]
  · iexists fw; isplitr; · ipureintro; rfl
    iexact Hw
  iexists _; isplitr
  swap; · iexact Ho
  ipureintro
  exact View.read_writes_eq_canon _ _ _ (product_covers _)

/-! ## The body at a point of the grid -/

/-- What the pipeline hands the body at point `t`: the invariant, the core's debts, and the three current staging
    buffers at what the schedule left in them. -/
def supportPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What the body hands back: the same invariant and debts, each buffer at the proof data's `after`. -/
def supportPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- At any point the two input buffers hold the point's x block and W, so the body's triple applies; the invariant
    and the debts are not read and do not depend on the point. -/
theorem support_body_sound (c : Dev nD) (t : Fin cfg0.N) :
    supportPre V c t ⊢ wp frame (wpE (defs₀ (F := F)) Variants.none c none) Set.univ (bodyAt0 t) (fun _ => supportPost V c t) := by
  unfold supportPre supportPost bodyAt0
  simp only [xBlock_staged, wBlock_staged]
  rw [show (dat0 V c).Φ t.succ = (dat0 V c).Φ t.castSucc from rfl,
    show (dat0 V c).owesAt () t.succ = (dat0 V c).owesAt () t.castSucc from rfl,
    after0_0, after0_1, after0_2]
  iintro ⟨HΦ, Hd, ⟨%d0, Hx⟩, ⟨%d1, Hw⟩, ⟨%d2, Ho⟩⟩
  iapply (support_kernel_sound c Set.univ _ _ _ _ _ _ _ (iblk0 V c 0 t) (iblk0 V c 1 t) _)
  isplitl [Hx]; · iexact Hx
  isplitl [Hw]; · iexact Hw
  isplitl [Ho]; · iexists _; iexact Ho
  iintro ⟨Hx, Hw, Ho⟩
  isplitl [HΦ]; · iexact HΦ
  isplitl [Hd]; · iexact Hd
  isplitl [Hx]; · iexact Hx
  isplitl [Hw]; · iexact Hw
  iexact Ho

/-- The body obligation of the first region, at every point. -/
theorem body_obligation0 (c : Dev nD) : BodyObligation (dat0 (F := F) V c) (defs₀ (F := F)) Variants.none () Set.univ := fun t => by
  rw [bigSep_W0, bigSep_W0]
  exact support_body_sound V c t

end Cert.KernelIdeal.Hand

end
-- ==== Proof.AggRegion.lean ====
/-
  The second kernel region: out = max(adj · support + support + b, 0), a 16 × 8 grid: grid row mb owns
  1024 output rows, and the 8 points of a grid row walk the contraction axis in blocks of 2048. A scratch
  accumulator is reset at the first point of each grid row, gains one block product per point, and at the
  last point of the row the output block is stored from it. Stated at a parameter V, the contents of the
  core's buffers when the region is entered.
-/
import proofs.«114250_j52536039965101_1_alg».proof.Proof.Gen.KernelIdeal.Launch
import proofs.«114250_j52536039965101_1_alg».proof.Proof.Gen.KernelIdeal.Skeleton
import proofs.«114250_j52536039965101_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator, a whole scoped buffer of the kernel's own. -/
abbrev scM : Memref sig .tc .vmem S1024x64 .f32 := Memref.whole cc1_scratch0

/-- What the accumulator holds after the body at position n: at the first point of a grid row (n ≡ 0 mod 8) the
    block product over the zero fill, otherwise the block product over what the point before left. -/
def scAt (c : Dev nD) : (n : ℕ) → n < cfg1.N → Vec F S1024x64 .f32
  | 0, hn => k1_pay2 (iblk1 V c 0 ⟨0, hn⟩) (iblk1 V c 1 ⟨0, hn⟩) (k1_pay1 (F := F))
  | n + 1, hn =>
    if (n + 1) % 8 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (scAt c n (Nat.lt_of_succ_lt hn))

theorem scAt_first (c : Dev nD) (t : Fin cfg1.N) (h : t.val % 8 = 0) :
    scAt V c t.val t.isLt = k1_pay2 (iblk1 V c 0 t) (iblk1 V c 1 t) (k1_pay1 (F := F)) := by
  obtain ⟨n, hn⟩ := t
  cases n with
  | zero => rfl
  | succ n => exact if_pos h

theorem scAt_later (c : Dev nD) (t : Fin cfg1.N) (h : ¬ t.val % 8 = 0) :
    scAt V c t.val t.isLt = k1_pay2 (iblk1 V c 0 t) (iblk1 V c 1 t)
      (scAt V c (t.val - 1) (Nat.lt_of_le_of_lt (Nat.sub_le _ _) t.isLt)) := by
  obtain ⟨n, hn⟩ := t
  cases n with
  | zero => exact absurd (Nat.zero_mod _) h
  | succ n => exact if_neg h

/-- What the last point of a grid row stores into the output window's buffer: the accumulator plus the row
    block of support plus the bias row, clamped below at zero. (At the other points the window is idle and
    this value is not consulted.) -/
def outAt (c : Dev nD) (t : Fin cfg1.N) : Vec F S1024x64 .f32 :=
  k1_pay3 (scAt V c t.val t.isLt) (iblk1 V c 2 t) (iblk1 V c 3 t)

/-- The scoped buffers that are neither staged by this region nor its accumulator: the first region's staging buffers,
    each whole at some contents. -/
def restS (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- The region invariant before position n: before the first point the scoped rest at anything and the generator
    register; afterwards the accumulator at what the point before left, the other scoped buffers at anything, the
    generator register at some state. -/
def PhiS (c : Dev nD) : (n : ℕ) → n ≤ cfg1.N → sProp 𝕄
  | 0, _ => Pipeline.ΦA spec1 c
  | n + 1, hn => iprop(owns (c : Thread nD τ) scM fullShare (scAt V c n hn) ∗ restS (F := F) c ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(owns (c : Thread nD τ) scM fullShare (scAt V c n hn) ∗ restS (F := F) c ∗ (∃ r, prngReg c r)) := rfl

theorem PhiS_pos (c : Dev nD) (n : ℕ) (h : n ≤ cfg1.N) (hz : n ≠ 0) :
    PhiS V c n h = iprop(owns (c : Thread nD τ) scM fullShare (scAt V c (n - 1) (by omega)) ∗ restS (F := F) c ∗ (∃ r, prngReg c r)) := by
  cases n with
  | zero => exact absurd rfl hz
  | succ n => rfl

/-- The proof data of the second pipeline on core c. The array support is read through two windows (the
    contraction block and the row block), each holding half of it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outAt V c t
  Φ t := PhiS V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outAt V c t := by dsimp only [dat1]

/-! ## The body's two branch conditions, over the grid -/

/-- The body's first condition: the point is the first of its grid row. -/
abbrev rowStart (i : grid1.Coords) : Prop :=
  (Scalar.cmpi .ne (Scalar.extui (Scalar.cmpi .eq (BitVec.ofNat 32 (i 1).val) 0#32)) 0#32) = 1#1
/-- It holds exactly at the points ≡ 0 (mod 8). -/
theorem rowStart_iff : ∀ t : Fin cfg1.N, rowStart (grid1.coords t) ↔ t.val % 8 = 0 :=
  (by decide +kernel : ∀ t : Fin grid1.N, rowStart (grid1.coords t) ↔ t.val % 8 = 0)

/-- The body's second condition: the point is the last of its grid row. -/
abbrev rowEnd (i : grid1.Coords) : Prop := k1_cond2 i = 1#1
/-- It holds exactly at the points ≡ 7 (mod 8). -/
theorem rowEnd_iff : ∀ t : Fin cfg1.N, rowEnd (grid1.coords t) ↔ t.val % 8 = 7 :=
  (by decide +kernel : ∀ t : Fin grid1.N, rowEnd (grid1.coords t) ↔ t.val % 8 = 7)

/-! ## Where the windows are idle -/

theorem live0 : ∀ t : Fin cfg1.N, cfg1.idle 0 (grid1.coords t) = false := fun _ => rfl
theorem live1 : ∀ t : Fin cfg1.N, cfg1.idle 1 (grid1.coords t) = false := fun _ => rfl
theorem live2 : ∀ t : Fin cfg1.N, cfg1.idle 2 (grid1.coords t) = false := fun _ => rfl
theorem live3 : ∀ t : Fin cfg1.N, cfg1.idle 3 (grid1.coords t) = false := fun _ => rfl
/-- Off the last point of a grid row the output window is idle, -/
theorem idle4 : ∀ t : Fin cfg1.N, ¬rowEnd (grid1.coords t) → cfg1.idle 4 (grid1.coords t) = true := by decide +kernel
/-- and its block is not written back there; -/
theorem noFlush4 : ∀ t : Fin cfg1.N, ¬rowEnd (grid1.coords t) → (cfg1.win 4).flush t = false := by decide +kernel
/-- at the last point of a grid row it is live. -/
theorem live4 : ∀ t : Fin cfg1.N, rowEnd (grid1.coords t) → cfg1.idle 4 (grid1.coords t) = false := by decide +kernel

/-! ## What the body finds in the input windows' buffers -/

/-- An input window's current buffer holds its block at every point, fetched there or not: an unfetched point has the
    block index of the point before, and the body leaves the block in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-! ## The class invariant with the accumulator named -/

/-- The class invariant hands out the accumulator at some contents, the other scoped buffers and the generator register. -/
theorem PhiA1_open (c : Dev nD) :
    (Pipeline.ΦA spec1 c : sProp 𝕄)
      ⊢ iprop((∃ d, owns (c : Thread nD τ) scM fullShare d) ∗ restS (F := F) c ∗ (∃ r, prngReg c r)) := by
  unfold Pipeline.ΦA restS; rw [scopedRest1_eq]; simp only [scM, owns_whole]
  iintro ⟨⟨H0, H1, H2, H3, H4, HS⟩, Hg⟩
  isplitl [HS]; · iexact HS
  isplitr [Hg]
  · isplitl [H0]; · iexact H0
    isplitl [H1]; · iexact H1
    isplitl [H2]; · iexact H2
    isplitl [H3]; · iexact H3
    iexact H4
  iexact Hg

/-- And takes them back, the accumulator's contents forgotten. -/
theorem PhiA1_close (c : Dev nD) (X : Vec F S1024x64 .f32) :
    iprop(owns (c : Thread nD τ) scM fullShare X ∗ restS (F := F) c ∗ (∃ r, prngReg c r))
      ⊢ (Pipeline.ΦA spec1 c : sProp 𝕄) := by
  unfold Pipeline.ΦA restS; rw [scopedRest1_eq]; simp only [scM, owns_whole]
  iintro ⟨HS, ⟨H0, H1, H2, H3, H4⟩, Hg⟩
  isplitr [Hg]
  · isplitl [H0]; · iexact H0
    isplitl [H1]; · iexact H1
    isplitl [H2]; · iexact H2
    isplitl [H3]; · iexact H3
    isplitl [H4]; · iexact H4
    iexists _; iexact HS
  iexact Hg

/-! ## Loads and stores through the whole-shape rectangle -/

theorem zeros2 : (![0, 0] : Fin 2 → ℕ) = fun _ => 0 := funext fun a => by fin_cases a <;> rfl

/-- A load of a whole buffer through the whole-shape rectangle at zero offsets reads what the buffer holds. -/
theorem readAt_whole {sp : Space} {S : Shape} {e : EltTy} (m : Memref sig .tc sp S e) (hm : m.IsWhole) (X : S.Idx → Elt F e)
    {off : Fin S.rank → ℕ} (h : off = fun _ => 0) (inb : ∀ a, off a + S.size a ≤ S.size a) :
    View.readAt (Elt F) m.view (Rect.unit off S.size inb).toLoadRect (hm.unread X) = X := by
  rw [View.readAt_eq_ld, hm.read_unread, View.ld_unit_zero h inb]

/-- After a last store through the whole-shape rectangle the buffer reads that store's payload. -/
theorem read_writes_whole {sp : Space} {S : Shape} {e : EltTy} (v : View sig .tc sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩),
    View.canon_cons_unit_zero h inb w L]

set_option maxHeartbeats 1000000 in
/-- The body at the first point of a grid row: the accumulator, whatever it held, is reset and gains the block
    product; the inputs and the idle output buffer are handed back as they were. -/
theorem body_rowStart (c : Dev nD) (i : grid1.Coords)
    (arg2 : Memref sig .tc .vmem S1024x2048 .f32) (harg2 : arg2.IsWhole) (arg3 : Memref sig .tc .vmem S2048x64 .f32) (harg3 : arg3.IsWhole)
    (arg4 : Memref sig .tc .vmem S1024x64 .f32) (harg4 : arg4.IsWhole) (arg5 : Memref sig .tc .vmem S1x64 .f32) (harg5 : arg5.IsWhole)
    (arg6 : Memref sig .tc .vmem S1024x64 .f32) (harg6 : arg6.IsWhole) (arg7 : Memref sig .tc .vmem S1024x64 .f32) (harg7 : arg7.IsWhole)
    (hc1 : rowStart i) (hc2 : ¬rowEnd i)
    (a : Vec F S1024x2048 .f32) (s : Vec F S2048x64 .f32) (sm : Vec F S1024x64 .f32) (b : Vec F S1x64 .f32) (o : Vec F S1024x64 .f32)
    (E : Set ℕ) (K : PUnit → sProp 𝕄) :
    iprop(owns (c : Thread nD τ) arg2 fullShare a ∗ owns (c : Thread nD τ) arg3 fullShare s ∗ owns (c : Thread nD τ) arg4 fullShare sm
        ∗ owns (c : Thread nD τ) arg5 fullShare b ∗ owns (c : Thread nD τ) arg6 fullShare o ∗ (∃ d, owns (c : Thread nD τ) arg7 fullShare d)
        ∗ (iprop(owns (c : Thread nD τ) arg2 fullShare a ∗ owns (c : Thread nD τ) arg3 fullShare s ∗ owns (c : Thread nD τ) arg4 fullShare sm
            ∗ owns (c : Thread nD τ) arg5 fullShare b ∗ owns (c : Thread nD τ) arg6 fullShare o
            ∗ owns (c : Thread nD τ) arg7 fullShare (k1_pay2 a s (k1_pay1 (F := F)))) -∗ K ⟨⟩))
      ⊢ wp frame (wpE (defs₀ (F := F)) Variants.none c none) E (cc1__gcn_kernel i arg2 harg2 arg3 harg3 arg4 harg4 arg5 harg5 arg6 harg6 arg7 harg7) K := by
  simp only [cc1__gcn_kernel_eq_skeleton]; unfold cc1__gcn_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr
  swap; · iexact H7
  ipureintro
  sl_unfold_words
  rw [read_writes_whole _ _ zeros2]
  rw [readAt_whole _ harg2 a zeros2, readAt_whole _ harg3 s zeros2, View.readCov_unit_zero _ zeros2]

set_option maxHeartbeats 1000000 in
/-- The body at an inner point of a grid row: the accumulator gains the block product over what it held; the inputs
    and the idle output buffer are handed back as they were. -/
theorem body_rowInner (c : Dev nD) (i : grid1.Coords)
    (arg2 : Memref sig .tc .vmem S1024x2048 .f32) (harg2 : arg2.IsWhole) (arg3 : Memref sig .tc .vmem S2048x64 .f32) (harg3 : arg3.IsWhole)
    (arg4 : Memref sig .tc .vmem S1024x64 .f32) (harg4 : arg4.IsWhole) (arg5 : Memref sig .tc .vmem S1x64 .f32) (harg5 : arg5.IsWhole)
    (arg6 : Memref sig .tc .vmem S1024x64 .f32) (harg6 : arg6.IsWhole) (arg7 : Memref sig .tc .vmem S1024x64 .f32) (harg7 : arg7.IsWhole)
    (hc1 : ¬rowStart i) (hc2 : ¬rowEnd i)
    (a : Vec F S1024x2048 .f32) (s : Vec F S2048x64 .f32) (sm : Vec F S1024x64 .f32) (b : Vec F S1x64 .f32) (o : Vec F S1024x64 .f32)
    (prev : Vec F S1024x64 .f32) (E : Set ℕ) (K : PUnit → sProp 𝕄) :
    iprop(owns (c : Thread nD τ) arg2 fullShare a ∗ owns (c : Thread nD τ) arg3 fullShare s ∗ owns (c : Thread nD τ) arg4 fullShare sm
        ∗ owns (c : Thread nD τ) arg5 fullShare b ∗ owns (c : Thread nD τ) arg6 fullShare o ∗ owns (c : Thread nD τ) arg7 fullShare prev
        ∗ (iprop(owns (c : Thread nD τ) arg2 fullShare a ∗ owns (c : Thread nD τ) arg3 fullShare s ∗ owns (c : Thread nD τ) arg4 fullShare sm
            ∗ owns (c : Thread nD τ) arg5 fullShare b ∗ owns (c : Thread nD τ) arg6 fullShare o
            ∗ owns (c : Thread nD τ) arg7 fullShare (k1_pay2 a s prev)) -∗ K ⟨⟩))
      ⊢ wp frame (wpE (defs₀ (F := F)) Variants.none c none) E (cc1__gcn_kernel i arg2 harg2 arg3 harg3 arg4 harg4 arg5 harg5 arg6 harg6 arg7 harg7) K := by
  simp only [cc1__gcn_kernel_eq_skeleton]; unfold cc1__gcn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr
  swap; · iexact H7
  ipureintro
  sl_unfold_words
  rw [read_writes_whole _ _ zeros2]
  rw [readAt_whole _ harg2 a zeros2, readAt_whole _ harg3 s zeros2, readAt_whole _ harg7 prev zeros2]

set_option maxHeartbeats 1000000 in
/-- The body at the last point of a grid row: the accumulator gains the block product over what it held, and the
    output buffer, whatever it held, is stored from the accumulator, the row block of support and the bias row. -/
theorem body_rowEnd (c : Dev nD) (i : grid1.Coords)
    (arg2 : Memref sig .tc .vmem S1024x2048 .f32) (harg2 : arg2.IsWhole) (arg3 : Memref sig .tc .vmem S2048x64 .f32) (harg3 : arg3.IsWhole)
    (arg4 : Memref sig .tc .vmem S1024x64 .f32) (harg4 : arg4.IsWhole) (arg5 : Memref sig .tc .vmem S1x64 .f32) (harg5 : arg5.IsWhole)
    (arg6 : Memref sig .tc .vmem S1024x64 .f32) (harg6 : arg6.IsWhole) (arg7 : Memref sig .tc .vmem S1024x64 .f32) (harg7 : arg7.IsWhole)
    (hc1 : ¬rowStart i) (hc2 : rowEnd i)
    (a : Vec F S1024x2048 .f32) (s : Vec F S2048x64 .f32) (sm : Vec F S1024x64 .f32) (b : Vec F S1x64 .f32)
    (prev : Vec F S1024x64 .f32) (E : Set ℕ) (K : PUnit → sProp 𝕄) :
    iprop(owns (c : Thread nD τ) arg2 fullShare a ∗ owns (c : Thread nD τ) arg3 fullShare s ∗ owns (c : Thread nD τ) arg4 fullShare sm
        ∗ owns (c : Thread nD τ) arg5 fullShare b ∗ (∃ d, owns (c : Thread nD τ) arg6 fullShare d) ∗ owns (c : Thread nD τ) arg7 fullShare prev
        ∗ (iprop(owns (c : Thread nD τ) arg2 fullShare a ∗ owns (c : Thread nD τ) arg3 fullShare s ∗ owns (c : Thread nD τ) arg4 fullShare sm
            ∗ owns (c : Thread nD τ) arg5 fullShare b ∗ owns (c : Thread nD τ) arg6 fullShare (k1_pay3 (k1_pay2 a s prev) sm b)
            ∗ owns (c : Thread nD τ) arg7 fullShare (k1_pay2 a s prev)) -∗ K ⟨⟩))
      ⊢ wp frame (wpE (defs₀ (F := F)) Variants.none c none) E (cc1__gcn_kernel i arg2 harg2 arg3 harg3 arg4 harg4 arg5 harg5 arg6 harg6 arg7 harg7) K := by
  simp only [cc1__gcn_kernel_eq_skeleton]; unfold cc1__gcn_kernel_skel
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, Hk⟩
  obtain rfl := harg2.eq_unread hf2; obtain rfl := harg3.eq_unread hf3; obtain rfl := harg4.eq_unread hf4
  obtain rfl := harg5.eq_unread hf5; obtain rfl := harg7.eq_unread hf7
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    sl_unfold_words
    rw [read_writes_whole _ _ zeros2]
    rw [View.readCov_unit_zero _ zeros2, readAt_whole _ harg2 a zeros2, readAt_whole _ harg3 s zeros2, readAt_whole _ harg7 prev zeros2,
      readAt_whole _ harg4 sm zeros2, readAt_whole _ harg5 b zeros2]
  iexists _; isplitr
  swap; · iexact H7
  ipureintro
  sl_unfold_words
  rw [read_writes_whole _ _ zeros2]
  rw [readAt_whole _ harg2 a zeros2, readAt_whole _ harg3 s zeros2, readAt_whole _ harg7 prev zeros2]

/-! ## The body obligation, at a generic point -/

/-- The invariant at a point's start, restated at the point's number. -/
theorem PhiS_castSucc (c : Dev nD) (t : Fin cfg1.N) :
    (dat1 V c).Φ t.castSucc = PhiS V c t.val (Nat.le_of_lt t.isLt) := by
  dsimp only [dat1]; simp only [Fin.coe_castSucc]

/-- What the body is called with at point t, the windows one by one, -/
def bodyPre (c : Dev nD) (t : Fin cfg1.N) : sProp 𝕄 :=
  iprop((dat1 V c).Φ t.castSucc ∗ (dat1 V c).owesAt () t.castSucc
    ∗ (∃ d, owns (c : Thread nD τ) (win1_0.stage (cfg1.slots t 0)) fullShare ((dat1 V c).before 0 t d))
    ∗ (∃ d, owns (c : Thread nD τ) (win1_1.stage (cfg1.slots t 1)) fullShare ((dat1 V c).before 1 t d))
    ∗ (∃ d, owns (c : Thread nD τ) (win1_2.stage (cfg1.slots t 2)) fullShare ((dat1 V c).before 2 t d))
    ∗ (∃ d, owns (c : Thread nD τ) (win1_3.stage (cfg1.slots t 3)) fullShare ((dat1 V c).before 3 t d))
    ∗ (∃ d, owns (c : Thread nD τ) (win1_4.stage (cfg1.slots t 4)) fullShare ((dat1 V c).before 4 t d)))

/-- and what it returns. -/
def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

/-- The body at any point. The input windows' buffers hold their blocks; the point's place in its grid row says which
    of the three cases runs. At the first point of a row the accumulator comes at anything (from the class invariant
    at the very first point, from the row before otherwise) and leaves at the block product over the zero fill; at a
    later point it comes at what the point before left and leaves at the block product over that; at the last point of
    a row the output buffer is stored from it, elsewhere the output buffer goes back untouched. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (win1_0.stage (cfg1.slots t 0)) fullShare ((dat1 V c).after 0 t) from by
    unfold Dat.leavesExact; rw [live0 t], after1_0]
  rw [show (dat1 V c).leavesExact 1 t = owns (c : Thread nD τ) (win1_1.stage (cfg1.slots t 1)) fullShare ((dat1 V c).after 1 t) from by
    unfold Dat.leavesExact; rw [live1 t], after1_1]
  rw [show (dat1 V c).leavesExact 2 t = owns (c : Thread nD τ) (win1_2.stage (cfg1.slots t 2)) fullShare ((dat1 V c).after 2 t) from by
    unfold Dat.leavesExact; rw [live2 t], after1_2]
  rw [show (dat1 V c).leavesExact 3 t = owns (c : Thread nD τ) (win1_3.stage (cfg1.slots t 3)) fullShare ((dat1 V c).after 3 t) from by
    unfold Dat.leavesExact; rw [live3 t], after1_3]
  have hN : t.val < 128 := lt_of_lt_of_eq t.isLt (show cfg1.N = 128 from N_1)
  by_cases h0 : t.val % 8 = 0
  · have h7 : ¬t.val % 8 = 7 := by omega
    rw [Dat.leavesExact_idle (dat1 V c) 4 t (idle4 t (fun h => h7 ((rowEnd_iff t).mp h))) (noFlush4 t (fun h => h7 ((rowEnd_iff t).mp h)))]
    rw [scAt_first V c t h0]
    by_cases hz : t.val = 0
    · rw [PhiS_castSucc V c t, PhiS_zero V c _ _ hz]
      iintro ⟨HΦ, Ho, ⟨%d0, H0⟩, ⟨%d1, H1⟩, ⟨%d2, H2⟩, ⟨%d3, H3⟩, ⟨%d4, H4⟩⟩
      ihave HΦ' := (PhiA1_open c) $$ HΦ
      icases HΦ' with ⟨HS, HR, Hg⟩
      iapply (body_rowStart c (grid1.coords t) _ _ _ _ _ _ _ _ _ _ _ _ ((rowStart_iff t).mpr h0) (fun h => h7 ((rowEnd_iff t).mp h))
        (iblk1 V c 0 t) (iblk1 V c 1 t) (iblk1 V c 2 t) (iblk1 V c 3 t) _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨HS, HR, Hg⟩, Ho, ⟨%d0, H0⟩, ⟨%d1, H1⟩, ⟨%d2, H2⟩, ⟨%d3, H3⟩, ⟨%d4, H4⟩⟩
      iapply (body_rowStart c (grid1.coords t) _ _ _ _ _ _ _ _ _ _ _ _ ((rowStart_iff t).mpr h0) (fun h => h7 ((rowEnd_iff t).mp h))
        (iblk1 V c 0 t) (iblk1 V c 1 t) (iblk1 V c 2 t) (iblk1 V c 3 t) _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h7 : t.val % 8 = 7
    · rw [show (dat1 V c).leavesExact 4 t = owns (c : Thread nD τ) (win1_4.stage (cfg1.slots t 4)) fullShare ((dat1 V c).after 4 t) from by
        unfold Dat.leavesExact; rw [live4 t ((rowEnd_iff t).mpr h7)], after1_4]
      unfold outAt
      rw [scAt_later V c t h0]
      rw [PhiS_castSucc V c t, PhiS_pos V c _ _ hz]
      iintro ⟨⟨HS, HR, Hg⟩, Ho, ⟨%d0, H0⟩, ⟨%d1, H1⟩, ⟨%d2, H2⟩, ⟨%d3, H3⟩, ⟨%d4, H4⟩⟩
      iapply (body_rowEnd c (grid1.coords t) _ _ _ _ _ _ _ _ _ _ _ _ (fun h => h0 ((rowStart_iff t).mp h)) ((rowEnd_iff t).mpr h7)
        (iblk1 V c 0 t) (iblk1 V c 1 t) (iblk1 V c 2 t) (iblk1 V c 3 t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexact H4
    · rw [Dat.leavesExact_idle (dat1 V c) 4 t (idle4 t (fun h => h7 ((rowEnd_iff t).mp h))) (noFlush4 t (fun h => h7 ((rowEnd_iff t).mp h)))]
      rw [scAt_later V c t h0]
      rw [PhiS_castSucc V c t, PhiS_pos V c _ _ hz]
      iintro ⟨⟨HS, HR, Hg⟩, Ho, ⟨%d0, H0⟩, ⟨%d1, H1⟩, ⟨%d2, H2⟩, ⟨%d3, H3⟩, ⟨%d4, H4⟩⟩
      iapply (body_rowInner c (grid1.coords t) _ _ _ _ _ _ _ _ _ _ _ _ (fun h => h0 ((rowStart_iff t).mp h)) (fun h => h7 ((rowEnd_iff t).mp h))
        (iblk1 V c 0 t) (iblk1 V c 1 t) (iblk1 V c 2 t) (iblk1 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4

/-- The body obligation of the second region, at every point. -/
theorem body_obligation1 (c : Dev nD) : BodyObligation (dat1 (F := F) V c) (defs₀ (F := F)) Variants.none () Set.univ := fun t => by
  rw [bigSep_W1, bigSep_W1]
  exact sound_body V c t

/-- What the launch hands the region is the invariant before the first point. -/
theorem hin1 (c : Dev nD) : Pipeline.ΦA spec1 c ⊢ (dat1 (F := F) V c).Φ 0 := by
  rw [show (dat1 V c).Φ 0 = PhiS V c 0 (Nat.zero_le _) from rfl, PhiS_zero V c 0 _ rfl]
  try exact Idealize.SL.BI.Entails.refl _

/-- After the last point the invariant gives the scoped rest and the generator register back: the accumulator's named
    contents are forgotten. -/
theorem hout1 (c : Dev nD) : (dat1 (F := F) V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 128 := N_1; omega)]
  exact PhiA1_close c _

end Cert.KernelIdeal.Hand

end
-- ==== Proof.MainRun.lean ====
/-
  The whole run of the program: the buffer contents at each boundary of @main as a fold from the launch memory
  (the first region writes the support array; one host line reshapes the bias to a row; the second region writes
  the result array), the proof data of both pipelines at their regions' entry contents, each region as a segment
  between two thread states "every unscoped buffer at the boundary's contents", and the launch. The run's post
  reads EVERY unscoped buffer at the last boundary's contents, so it yields both the frame claim (the arguments
  are never written) and the value of the result array. In the second region the support array is read through
  two windows: its points-to is split into two halves at the region's entry and joined again at its exit.
-/
import proofs.«114250_j52536039965101_1_alg».proof.Proof.Gen.KernelIdeal.Launch
import proofs.«114250_j52536039965101_1_alg».proof.Proof.Gen.KernelIdeal.Skeleton
import proofs.«114250_j52536039965101_1_alg».proof.Proof.Gen.KernelIdeal.Points
import proofs.«114250_j52536039965101_1_alg».proof.Proof.SupportRegion
import proofs.«114250_j52536039965101_1_alg».proof.Proof.AggRegion
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch (the first region's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- At the first region's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host line (the second region's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b

/-- At the second region's exit: the result array at what the pipeline leaves, every other buffer as entered
    (the region's other arrays are inputs). -/
def W3 (c : Dev nD) : Valuation τ sig (Elt F) :=
  Function.update (W2 m ρ c) main_v2 ((dat1 (V2 m ρ) c).arrAt 4 cfg1.N)
abbrev V3 : (c : Dev nD) → (b : Ref sig .tc) → Buf (Elt F) ((c : Thread nD τ).loc b) := fun c b => W3 m ρ c b
theorem W3_result (c : Dev nD) : W3 m ρ c (Proc.devRef .tc main_v2) = (dat1 (V2 m ρ) c).arrAt 4 cfg1.N := by
  unfold W3; exact Function.update_self ..
theorem W3_of_ne (c : Dev nD) (r : Ref sig .tc) (h : r ≠ main_v2) : W3 m ρ c (Proc.devRef .tc r) = W2 m ρ c (Proc.devRef .tc r) := by
  unfold W3
  exact Function.update_of_ne (StableHlo.devRef_ne_of_ne h : (Proc.devRef .tc r : DevRef τ sig) ≠ Proc.devRef .tc main_v2) _ _

/-! ## The proof data family and the thread state -/

abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)

theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tₙ (c : Dev nD) : sProp 𝕄 := iprop(StableHlo.held (c : Thread nD τ) (Pipeline.ucRefs τ sig) (W3 m ρ c) ∗ ∃ r, prngReg c r)

/-! ## The first region as a segment -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second region's arrays out of the unscoped buffers, and back -/

/-- The distinct buffers behind the second region's windows, listed. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg1) ↦{fullShare} V main_arg1) ∗ (((c : Thread nD τ).loc main_v0) ↦{fullShare} V main_v0)
          ∗ (((c : Thread nD τ).loc main_v1) ↦{fullShare} V main_v1) ∗ (((c : Thread nD τ).loc main_v2) ↦{fullShare} V main_v2)) := by
  unfold Pipeline.arrBufs
  exact bigSep_eq_bigSepL_of_eq [main_arg1, main_v0, main_v1, main_v2] (by decide) (by decide) _

/-- The second pipeline's arrays window by window: the support array held by halves through its two windows. -/
theorem arrays1_eq (c : Dev nD) (F' : (w : Fin cfg1.W) → Buf (Elt F) ((cfg1.win w).arr.view.loc (c : Thread nD τ))) :
    ((pdats m ρ 1 c).arrays F' : sProp 𝕄)
      = iprop((((c : Thread nD τ).loc main_arg1) ↦{fullShare} F' 0) ∗ (((c : Thread nD τ).loc main_v0) ↦{fullShare.left} F' 1)
          ∗ (((c : Thread nD τ).loc main_v0) ↦{fullShare.right} F' 2) ∗ (((c : Thread nD τ).loc main_v1) ↦{fullShare} F' 3)
          ∗ (((c : Thread nD τ).loc main_v2) ↦{fullShare} F' 4)) := by
  have h : ((pdats m ρ 1 c).arrays F' : sProp 𝕄)
      = bigSep Finset.univ fun w : Fin 5 => (((c : Thread nD τ).loc (Pipeline.arrRef spec1 w)) ↦{(dat1 (V2 m ρ) c).share w} F' w : sProp 𝕄) := by
    unfold Pipeline.Dat.arrays
    exact bigSep_congr fun w _ => by
      have hw : ((Pipeline.pin (pcfgs (F := F)) adm 1).win w).arr.IsWhole := arr_whole1 w
      rw [hw.set_eq_univ]; rfl
  rw [h, bigSep_W1]
  rfl

/-- ENTRY of the second region: every unscoped buffer at the boundary's contents yields the pipeline's arrays at their
    entry contents (the support array's points-to split into the two halves its two windows hold) and the rest. -/
theorem entry_split1 (c : Dev nD) :
    (StableHlo.held (c : Thread nD τ) (Pipeline.ucRefs τ sig) (W2 m ρ c) : sProp 𝕄)
      ⊢ iprop((pdats m ρ 1 c).arrays ((pdats m ρ 1 c).arrAt · 0)
          ∗ Pipeline.unscopedRest (Ix := Unit) (Name := ℕ) (U := UR sig nD τ) (Lvl := ℕ) spec1 c (V2 m ρ c)) := by
  have hs : (unscopedBufs (Ix := Unit) (Name := ℕ) (U := UR sig nD τ) (Lvl := ℕ) c (V2 m ρ c) : sProp 𝕄)
      = iprop(Pipeline.arrBufs spec1 c (V2 m ρ c) ∗ Pipeline.unscopedRest spec1 c (V2 m ρ c)) :=
    Pipeline.unscopedBufs_split₀ (Pipeline.pin (pcfgs (F := F)) adm) (1 : Fin 2) winFacts₀1.arr_unscoped c (V2 m ρ c)
  rw [Pipeline.unscopedBufs_held] at hs
  rw [hs, arrBufs1_eq, arrays1_eq]
  iintro ⟨⟨H1, H0, Hb, Ho⟩, Hrest⟩
  ihave H0' := (pointsTo_share (PosShare.mem_left_op_right fullShare)).1 $$ H0
  icases H0' with ⟨Hl, Hr⟩
  isplitr [Hrest]
  · isplitl [H1]; · iexact H1
    isplitl [Hl]; · iexact Hl
    isplitl [Hr]; · iexact Hr
    isplitl [Hb]; · iexact Hb
    iexact Ho
  · iexact Hrest

/-- EXIT of the second region: the pipeline's arrays at their final contents (the inputs as entered, the two halves of
    the support array joined; the result array at what the write-backs leave) and the rest are every unscoped buffer
    at the last boundary's contents. -/
theorem exit_join1 (c : Dev nD) :
    iprop((pdats m ρ 1 c).arrays ((pdats m ρ 1 c).arrAt · cfg1.N)
        ∗ Pipeline.unscopedRest (Ix := Unit) (Name := ℕ) (U := UR sig nD τ) (Lvl := ℕ) spec1 c (V2 m ρ c))
      ⊢ (StableHlo.held (c : Thread nD τ) (Pipeline.ucRefs τ sig) (W3 m ρ c) : sProp 𝕄) := by
  have hs : (unscopedBufs (Ix := Unit) (Name := ℕ) (U := UR sig nD τ) (Lvl := ℕ) c (V3 m ρ c) : sProp 𝕄)
      = iprop(Pipeline.arrBufs spec1 c (V3 m ρ c) ∗ Pipeline.unscopedRest spec1 c (V3 m ρ c)) :=
    Pipeline.unscopedBufs_split₀ (Pipeline.pin (pcfgs (F := F)) adm) (1 : Fin 2) winFacts₀1.arr_unscoped c (V3 m ρ c)
  rw [Pipeline.unscopedBufs_held] at hs
  rw [hs, arrBufs1_eq, arrays1_eq, unscopedRest1_eq, unscopedRest1_eq]
  have i0 : (pdats m ρ 1 c).arrAt 0 cfg1.N = V3 m ρ c main_arg1 :=
    ((pdats m ρ 1 c).arrAt_in 0 rfl _).trans ((A_eq1 (V2 m ρ) c 0).trans (W3_of_ne m ρ c main_arg1 (by decide)).symm)
  have i1 : (pdats m ρ 1 c).arrAt 1 cfg1.N = V3 m ρ c main_v0 :=
    ((pdats m ρ 1 c).arrAt_in 1 rfl _).trans ((A_eq1 (V2 m ρ) c 1).trans (W3_of_ne m ρ c main_v0 (by decide)).symm)
  have i2 : (pdats m ρ 1 c).arrAt 2 cfg1.N = V3 m ρ c main_v0 :=
    ((pdats m ρ 1 c).arrAt_in 2 rfl _).trans ((A_eq1 (V2 m ρ) c 2).trans (W3_of_ne m ρ c main_v0 (by decide)).symm)
  have i3 : (pdats m ρ 1 c).arrAt 3 cfg1.N = V3 m ρ c main_v1 :=
    ((pdats m ρ 1 c).arrAt_in 3 rfl _).trans ((A_eq1 (V2 m ρ) c 3).trans (W3_of_ne m ρ c main_v1 (by decide)).symm)
  have i4 : (pdats m ρ 1 c).arrAt 4 cfg1.N = V3 m ρ c main_v2 := (W3_result m ρ c).symm
  have j0 : V2 m ρ c main_arg0 = V3 m ρ c main_arg0 := (W3_of_ne m ρ c main_arg0 (by decide)).symm
  have j2 : V2 m ρ c main_arg2 = V3 m ρ c main_arg2 := (W3_of_ne m ρ c main_arg2 (by decide)).symm
  have j3 : V2 m ρ c main_arg3 = V3 m ρ c main_arg3 := (W3_of_ne m ρ c main_arg3 (by decide)).symm
  rw [i0, i1, i2, i3, i4, j0, j2, j3]
  iintro ⟨⟨H1, Hl, Hr, Hb, Ho⟩, Hrest⟩
  ihave H0 := (pointsTo_share (PosShare.mem_left_op_right fullShare)).2 $$ [Hl Hr]
  · isplitl [Hl] <;> iassumption
  isplitr [Hrest]
  · isplitl [H1]; · iexact H1
    isplitl [H0]; · iexact H0
    isplitl [Hb]; · iexact Hb
    iexact Ho
  · iexact Hrest

/-! ## The second region as a segment -/

set_option backward.isDefEq.respectTransparency.types false in
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    iintro ⟨⟨Hub, Hp, HO⟩, -, -⟩
    ihave H := (entry_split1 m ρ c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    iintro ⟨Hp, -, Hr⟩
    iapply (hin1 (V2 m ρ) c)
    unfold Pipeline.ΦA
    isplitl [Hr]; · iexact Hr
    iexact Hp
  hout c := by
    rw [Pipeline.ownSems0_none, show (pdats m ρ 1 c).Φ (Fin.last _) = (dat1 (V2 m ρ) c).Φ (Fin.last cfg1.N) from rfl]
    iintro H
    ihave H' := (hout1 (V2 m ρ) c) $$ H
    unfold Pipeline.ΦA
    icases H' with ⟨Hr, Hp⟩
    isplitl [Hp]; · iexact Hp
    isplitr; · iempintro
    iexact Hr
  hexit c := by
    iintro ⟨Ha, HO, HY, Hrest⟩
    imodintro
    isplitl [Ha Hrest HY]
    · isplitl [Ha Hrest]
      · iapply (exit_join1 m ρ c); isplitl [Ha] <;> iassumption
      iexact HY
    unfold Pipeline.Dat.owesAt Pipeline.owesWithin
    icases HO with ⟨%W, -, HO⟩; iexists W; iexact HO

/-! ## @main as segments, and the launch -/

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- @main's three segments in order: the first region, the host line, the second region. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, and
    every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-! ## What the boundaries hold -/

theorem hostOps1_keeps (c : Dev nD) (W : Valuation τ sig (Elt F)) (r : Ref sig .tc) (h : r ≠ main_v1) :
    StableHlo.after (hostOps1 : List (HloOp τ sig (Elt F))) W (Proc.devRef .tc r) = W (Proc.devRef .tc r) :=
  StableHlo.after_of_forall_not_mem (b := Proc.devRef .tc r) _ _ (List.forall_iff_forall_mem.mp (by
    simp only [hostOps1, List.Forall, StableHlo.reshape_writes, Finset.mem_singleton]
    exact StableHlo.devRef_ne_of_ne h))

/-- The arguments reach the end as launched. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := hostOps1_keeps c _ main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := hostOps1_keeps c _ main_arg1 (by decide)
    _ = W0 m ρ c (Proc.devRef .tc main_arg1) := W1_of_ne m ρ c main_arg1 (by decide)
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := hostOps1_keeps c _ main_arg2 (by decide)
    _ = W0 m ρ c (Proc.devRef .tc main_arg2) := (W1_arr m ρ c 1).trans (((dat0 (V0 m ρ) c).arrAt_in 1 rfl _).trans (A_eq0 (V0 m ρ) c 1))
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := hostOps1_keeps c _ main_arg3 (by decide)
    _ = W0 m ρ c (Proc.devRef .tc main_arg3) := W1_of_ne m ρ c main_arg3 (by decide)
    _ = m ((c : Thread nD τ).loc main_arg3) := rfl

/-- The second region is entered with adj as launched, -/
theorem V2_main_arg1 (c : Dev nD) : V2 m ρ c main_arg1 = m ((c : Thread nD τ).loc main_arg1) :=
  (hostOps1_keeps c _ main_arg1 (by decide)).trans (W1_of_ne m ρ c main_arg1 (by decide))
/-- the support array at what the first region left, -/
theorem V2_main_v0 (c : Dev nD) : V2 m ρ c main_v0 = (dat0 (V0 m ρ) c).arrAt 2 cfg0.N :=
  (hostOps1_keeps c _ main_v0 (by decide)).trans (W1_arr m ρ c 2)
/-- and the bias reshaped to one row. -/
theorem V2_main_v1 (c : Dev nD) : V2 m ρ c main_v1 = shapeCast S1x64 (m ((c : Thread nD τ).loc main_arg3)) shapeCasts_S64_S1x64 := by
  show StableHlo.after hostOps1 (W1 m ρ c) (Proc.devRef .tc main_v1) = _
  after_results
  rw [W1_of_ne m ρ c main_arg3 (by decide)]
  rfl

/-- THE FRAME: every argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

end Cert.KernelIdeal.Hand

end
-- ==== Proof.Spec.lean ====
/-
  The function both programs compute, on the extended reals, index by index:

      support = x · W                                        (16384 × 64)
      out     = max (adj · support + support + b, 0)         (16384 × 64)

  with b broadcast along the rows. `supp` is the first product, `agg` the second stage as a function of ANY
  support array and bias row, and `G` their composition. No program is imported here.
-/
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨2, ![16384, 256]⟩
abbrev SAdj : Shape := ⟨2, ![16384, 16384]⟩
abbrev SW : Shape := ⟨2, ![256, 64]⟩
abbrev SB : Shape := ⟨1, ![64]⟩
abbrev SRow : Shape := ⟨2, ![1, 64]⟩
abbrev SOut : Shape := ⟨2, ![16384, 64]⟩

/-- support = x · W: entry (r, j) is the sum over k of x (r, k) · W (k, j). -/
def supp (x : FVec Ideal SX .f32) (w : FVec Ideal SW .f32) : FVec Ideal SOut .f32 :=
  fun i => ∑ k : Fin 256, x (ix2 (i 0) k) * w (ix2 k (i 1))

/-- The bias as a one-row matrix. -/
def row (b : FVec Ideal SB .f32) : FVec Ideal SRow .f32 := fun j => b (ix1 (j 1))

/-- The second stage, of any support array s and bias row b: entry (r, j) is
    max (∑ k, adj (r, k) · s (k, j) + s (r, j) + b (0, j), 0). -/
def agg (adj : FVec Ideal SAdj .f32) (s : FVec Ideal SOut .f32) (b : FVec Ideal SRow .f32) : FVec Ideal SOut .f32 :=
  fun i => max ((∑ k : Fin 16384, adj (ix2 (i 0) k) * s (ix2 k (i 1))) + s i + b (ix2 (0 : Fin 1) (i 1)))
    (Ideal.ofBits .f32 0x00000000#32)

/-- The whole layer. -/
def G (x : FVec Ideal SX .f32) (adj : FVec Ideal SAdj .f32) (w : FVec Ideal SW .f32) (b : FVec Ideal SB .f32) :
    FVec Ideal SOut .f32 :=
  agg adj (supp x w) (row b)

end Cert.Spec

end
-- ==== Proof.SupportValue.lean ====
/-
  What the first region leaves in the support array, at the ideal instance: the 8 row blocks the grid's points write
  back tile the array, and the block written at point t is the product of rows 2048·t … 2048·t + 2047 of x with W,
  so the array ends as `Cert.Spec.supp` of the region-entry contents of x and W.
-/
import proofs.«114250_j52536039965101_1_alg».proof.Proof.SupportRegion
import proofs.«114250_j52536039965101_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The product at an index -/

/-- A row of the left factor stays the output's row. -/
theorem lhs_row (i : S2048x64.Idx) (q : dot_S2048x256_S256x64_S2048x64_1_0_0_1_n_n.contr.Idx) :
    (dot_S2048x256_S256x64_S2048x64_1_0_0_1_n_n.lhsIdx i q 0).val = (i 0).val := by
  unfold DotDims.lhsIdx
  rw [dif_neg (show ¬(0 : Fin S2048x256.rank) ∈ dot_S2048x256_S256x64_S2048x64_1_0_0_1_n_n.lhsBatch by decide), dif_pos (show (0 : Fin S2048x256.rank) ∈ dot_S2048x256_S256x64_S2048x64_1_0_0_1_n_n.lhsNonContracting by decide)]
  rfl
/-- The left factor's column is the summation index. -/
theorem lhs_col (i : S2048x64.Idx) (q : dot_S2048x256_S256x64_S2048x64_1_0_0_1_n_n.contr.Idx) :
    (dot_S2048x256_S256x64_S2048x64_1_0_0_1_n_n.lhsIdx i q 1).val = (q ⟨0, by decide⟩).val :=
  dot_S2048x256_S256x64_S2048x64_1_0_0_1_n_n.lhsIdx_val_of_single rfl i q
/-- The right factor's row is the summation index. -/
theorem rhs_row (i : S2048x64.Idx) (q : dot_S2048x256_S256x64_S2048x64_1_0_0_1_n_n.contr.Idx) :
    (dot_S2048x256_S256x64_S2048x64_1_0_0_1_n_n.rhsIdx i q 0).val = (q ⟨0, by decide⟩).val :=
  dot_S2048x256_S256x64_S2048x64_1_0_0_1_n_n.rhsIdx_val_of_single rfl i q
/-- A column of the right factor stays the output's column. -/
theorem rhs_col (i : S2048x64.Idx) (q : dot_S2048x256_S256x64_S2048x64_1_0_0_1_n_n.contr.Idx) :
    (dot_S2048x256_S256x64_S2048x64_1_0_0_1_n_n.rhsIdx i q 1).val = (i 1).val := by
  unfold DotDims.rhsIdx
  rw [dif_neg (show ¬(1 : Fin S256x64.rank) ∈ dot_S2048x256_S256x64_S2048x64_1_0_0_1_n_n.rhsBatch by decide), dif_pos (show (1 : Fin S256x64.rank) ∈ dot_S2048x256_S256x64_S2048x64_1_0_0_1_n_n.rhsNonContracting by decide)]
  rfl

/-- The body's product at entry (p, q): the sum over k of x0 (p, k) · x1 (k, q). The two roundings to the narrow
    format are the identity on the extended reals, and the accumulator is the zero constant. -/
theorem product_apply (x0 : Vec Ideal S2048x256 .f32) (x1 : Vec Ideal S256x64 .f32) (p : Fin 2048) (q : Fin 64) :
    k0_pay1 (F := Ideal) x0 x1 (ix2 p q) = ∑ k : Fin 256, x0 (ix2 p k) * x1 (ix2 k q) := by
  unfold k0_pay1
  show FloatOps.matmul (F := Ideal) (φ₁ := .bf16) (φ₂ := .bf16) dot_S2048x256_S256x64_S2048x64_1_0_0_1_n_n none x0 x1 (constant S2048x64 .f32 0x00000000#32) (ix2 p q) = _
  rw [Ideal.matmul_constant_zero_apply, ← Equiv.sum_comp (contrEquiv1 dot_S2048x256_S256x64_S2048x64_1_0_0_1_n_n 256 rfl rfl).symm]
  refine Finset.sum_congr rfl fun k _ => ?_
  have hk := contrEquiv1_symm_val dot_S2048x256_S256x64_S2048x64_1_0_0_1_n_n 256 rfl rfl k
  have el : dot_S2048x256_S256x64_S2048x64_1_0_0_1_n_n.lhsIdx (ix2 p q) ((contrEquiv1 dot_S2048x256_S256x64_S2048x64_1_0_0_1_n_n 256 rfl rfl).symm k) = ix2 p k := funext fun a => Fin.ext (by
    match a with
    | ⟨0, _⟩ => exact lhs_row _ _
    | ⟨1, _⟩ => exact (lhs_col _ _).trans hk)
  have er : dot_S2048x256_S256x64_S2048x64_1_0_0_1_n_n.rhsIdx (ix2 p q) ((contrEquiv1 dot_S2048x256_S256x64_S2048x64_1_0_0_1_n_n 256 rfl rfl).symm k) = ix2 k q := funext fun a => Fin.ext (by
    match a with
    | ⟨0, _⟩ => exact (rhs_row _ _).trans hk
    | ⟨1, _⟩ => exact rhs_col _ _)
  rw [el, er]

/-! ## From the row blocks to the array -/

theorem origin_zero : (![0, 0] : Fin 2 → Nat) = fun _ => 0 := funext fun a => by fin_cases a <;> rfl

/-- The product over a block of rows of x and over W is the matching entry of x · W, once the two blocks are known
    to be read from x's row of the entry and from W. -/
theorem block_product (x0 : Vec Ideal S2048x256 .f32) (x1 : Vec Ideal S256x64 .f32)
    (X : FVec Ideal Cert.Spec.SX .f32) (W : FVec Ideal Cert.Spec.SW .f32) (j : S2048x64.Idx) (i : S16384x64.Idx)
    (hx : ∀ k : Fin 256, x0 (ix2 (j 0) k) = X (ix2 (i 0) k)) (hw : ∀ k : Fin 256, x1 (ix2 k (j 1)) = W (ix2 k (i 1))) :
    k0_pay1 (F := Ideal) x0 x1 j = Cert.Spec.supp X W i := by
  obtain ⟨p, q, rfl⟩ : ∃ (p : Fin 2048) (q : Fin 64), j = ix2 p q := ⟨j 0, j 1, eq_ix2 j⟩
  rw [product_apply]
  unfold Cert.Spec.supp
  exact Finset.sum_congr rfl fun k _ => by rw [← hx k, ← hw k]

/-- The block index maps over the grid: point t's x block and output block are row block t, their column block
    and both of W's are block 0. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of x · W of the arrays the region was entered with. -/
theorem written_block (c : Dev nD) (t : Fin cfg0.N) :
    (dat0 (F := Ideal) V c).flushed 2 t = ((cfg0.win 2).blk t).view.read (Elt Ideal) (Cert.Spec.supp (V c main_arg0) (V c main_arg2)) := by
  show (cfg0.win 2).cut (grid0.coords t) ((dat0 V c).after 2 t) = _
  rw [after0_2]
  unfold out0_2
  rw [View.canon_unit_zero origin_zero]
  simp only [View.ld_unit_zero (S := S2048x256) origin_zero, View.ld_unit_zero (S := S256x64) origin_zero]
  obtain ⟨e0, e1, e2, e3, e4, e5⟩ := block_indices t
  funext j
  show k0_pay1 (iblk0 V c 0 t) (iblk0 V c 1 t) j = Cert.Spec.supp (V c main_arg0) (V c main_arg2) (((cfg0.win 2).blk t).view.emb j)
  refine block_product _ _ _ _ j _ (fun k => ?_) (fun k => ?_)
  · show V c main_arg0 (((cfg0.win 0).blk t).view.emb _) = V c main_arg0 _
    refine congrArg _ (funext fun a => Fin.ext ?_)
    match a with
    | ⟨0, _⟩ => show win0_0.index t (0 : Fin 2) * 2048 + 1 * (j 0).val = win0_2.index t (0 : Fin 2) * 2048 + 1 * (j 0).val; omega
    | ⟨1, _⟩ => show win0_0.index t (1 : Fin 2) * 256 + 1 * k.val = k.val; omega
  · show V c main_arg2 (((cfg0.win 1).blk t).view.emb _) = V c main_arg2 _
    refine congrArg _ (funext fun a => Fin.ext ?_)
    match a with
    | ⟨0, _⟩ => show win0_1.index t (0 : Fin 2) * 256 + 1 * k.val = k.val; omega
    | ⟨1, _⟩ => show win0_1.index t (1 : Fin 2) * 64 + 1 * (j 1).val = win0_2.index t (1 : Fin 2) * 64 + 1 * (j 1).val; omega

/-- An index of the array lies in point t's block iff each coordinate lies in the block's range on its axis. -/
theorem mem_block (t : Fin cfg0.N) (i : S16384x64.Idx) :
    i ∈ ((cfg0.win 2).blk t).view.set ↔ ∀ a : Fin 2, win0_2.index t a * S2048x64.size a ≤ (i a).val ∧ (i a).val < win0_2.index t a * S2048x64.size a + S2048x64.size a := by
  show i ∈ ((View.whole main_v0).slice (win0_2.rect t)).set ↔ _
  rw [View.set_slice_whole, Rect.mem_set_unit]
  exact Iff.rfl

/-- The 8 row blocks tile the array: row r lies in the block of point r / 2048, which is written back. -/
theorem rows_covered (i : S16384x64.Idx) :
    ∃ t : Fin cfg0.N, (cfg0.win 2).flush t = true ∧ i ∈ ((cfg0.win 2).blk t).view.set := by
  have hi0 : (i 0).val < 16384 := (i 0).isLt
  have hi1 : (i 1).val < 64 := (i 1).isLt
  obtain ⟨t, ht⟩ : ∃ t : Fin cfg0.N, t.val = (i 0).val / 2048 :=
    ⟨⟨(i 0).val / 2048, by rw [show cfg0.N = 8 from N_0]; omega⟩, rfl⟩
  obtain ⟨e0, e1, e2, e3, e4, e5⟩ := block_indices t
  refine ⟨t, flush0_2 t, ?_⟩
  rw [mem_block]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 64 ≤ (i 1).val ∧ (i 1).val < win0_2.index t (1 : Fin 2) * 64 + 64; omega

/-- After the region's last point the output array is x · W of the arrays the region was entered with. -/
theorem support_final (c : Dev nD) :
    (dat0 (F := Ideal) V c).arrAt 2 cfg0.N = Cert.Spec.supp (V c main_arg0) (V c main_arg2) := by
  exact (dat0 (F := Ideal) V c).arrAt_eq_of_cover 2 (Cert.Spec.supp (V c main_arg0) (V c main_arg2))
    (fun t _ => written_block V c t) rows_covered

end Cert.KernelIdeal.HandValue

end
-- ==== Proof.AggValue.lean ====
/-
  What the second region leaves in the result array, at the ideal instance. Along a grid row the accumulator after
  the point with contraction block kb holds, at (r, j), the sum over the first kb + 1 blocks of 2048 indices k of
  adj (row, k) · support (k, j); at the row's last point that is the whole sum over 16384 indices, and the block
  written back is max (that + support (row, j) + b (0, j), 0). The 16 blocks written back tile the array.
-/
import proofs.«114250_j52536039965101_1_alg».proof.Proof.AggRegion
import proofs.«114250_j52536039965101_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## The payloads at an index -/

/-- The fill the accumulator is reset to is zero everywhere. -/
theorem acc_fill_apply (p : Fin 1024) (q : Fin 64) : k1_pay1 (F := Ideal) (ix2 p q) = 0 := by
  unfold k1_pay1
  show shapeCast S1024x64 (broadcast S1024x64 (Scalar.ofBits (F := Ideal) .f32 0x00000000#32)) shapeCasts_S1024x64_S1024x64 (ix2 p q) = 0
  rw [shapeCast_self]
  exact Ideal.ofBits_zero_f32

/-- The product's operand indices at output index i and contraction index k are (i 0, k) on the left and (k, i 1)
    on the right: the four coordinates, one lemma each. -/
theorem agg_lhs_row (i : S1024x64.Idx) (k : dot_S1024x2048_S2048x64_S1024x64_1_0_0_1_n_n.contr.Idx) :
    (dot_S1024x2048_S2048x64_S1024x64_1_0_0_1_n_n.lhsIdx i k 0).val = (i 0).val := by
  unfold DotDims.lhsIdx
  rw [dif_neg (show ¬(0 : Fin S1024x2048.rank) ∈ dot_S1024x2048_S2048x64_S1024x64_1_0_0_1_n_n.lhsBatch by decide), dif_pos (show (0 : Fin S1024x2048.rank) ∈ dot_S1024x2048_S2048x64_S1024x64_1_0_0_1_n_n.lhsNonContracting by decide)]
  rfl
theorem agg_lhs_col (i : S1024x64.Idx) (k : dot_S1024x2048_S2048x64_S1024x64_1_0_0_1_n_n.contr.Idx) :
    (dot_S1024x2048_S2048x64_S1024x64_1_0_0_1_n_n.lhsIdx i k 1).val = (k ⟨0, by decide⟩).val :=
  dot_S1024x2048_S2048x64_S1024x64_1_0_0_1_n_n.lhsIdx_val_of_single rfl i k
theorem agg_rhs_row (i : S1024x64.Idx) (k : dot_S1024x2048_S2048x64_S1024x64_1_0_0_1_n_n.contr.Idx) :
    (dot_S1024x2048_S2048x64_S1024x64_1_0_0_1_n_n.rhsIdx i k 0).val = (k ⟨0, by decide⟩).val :=
  dot_S1024x2048_S2048x64_S1024x64_1_0_0_1_n_n.rhsIdx_val_of_single rfl i k
theorem agg_rhs_col (i : S1024x64.Idx) (k : dot_S1024x2048_S2048x64_S1024x64_1_0_0_1_n_n.contr.Idx) :
    (dot_S1024x2048_S2048x64_S1024x64_1_0_0_1_n_n.rhsIdx i k 1).val = (i 1).val := by
  unfold DotDims.rhsIdx
  rw [dif_neg (show ¬(1 : Fin S2048x64.rank) ∈ dot_S1024x2048_S2048x64_S1024x64_1_0_0_1_n_n.rhsBatch by decide), dif_pos (show (1 : Fin S2048x64.rank) ∈ dot_S1024x2048_S2048x64_S1024x64_1_0_0_1_n_n.rhsNonContracting by decide)]
  rfl

/-- The block product into the zero splat, at (p, q): the sum over the block's 2048 contraction indices. -/
theorem block_product_apply (a : FVec Ideal S1024x2048 .bf16) (s : FVec Ideal S2048x64 .bf16) (p : Fin 1024) (q : Fin 64) :
    matmul dot_S1024x2048_S2048x64_S1024x64_1_0_0_1_n_n none a s (constant (F := Ideal) S1024x64 .f32 0x00000000#32) (ix2 p q)
      = ∑ k : Fin 2048, a (ix2 p k) * s (ix2 k q) := by
  simp only [matmul]
  rw [Ideal.matmul_constant_zero_apply, ← Equiv.sum_comp (ValueIdx.contrEquiv1 dot_S1024x2048_S2048x64_S1024x64_1_0_0_1_n_n 2048 rfl rfl).symm]
  refine Finset.sum_congr rfl fun k _ => ?_
  have hk := ValueIdx.contrEquiv1_symm_val dot_S1024x2048_S2048x64_S1024x64_1_0_0_1_n_n 2048 rfl rfl k
  have el : dot_S1024x2048_S2048x64_S1024x64_1_0_0_1_n_n.lhsIdx (ix2 p q) ((ValueIdx.contrEquiv1 dot_S1024x2048_S2048x64_S1024x64_1_0_0_1_n_n 2048 rfl rfl).symm k) = ix2 p k := funext fun a => Fin.ext (by
    match a with
    | ⟨0, _⟩ => exact agg_lhs_row _ _
    | ⟨1, _⟩ => exact (agg_lhs_col _ _).trans hk)
  have er : dot_S1024x2048_S2048x64_S1024x64_1_0_0_1_n_n.rhsIdx (ix2 p q) ((ValueIdx.contrEquiv1 dot_S1024x2048_S2048x64_S1024x64_1_0_0_1_n_n 2048 rfl rfl).symm k) = ix2 k q := funext fun a => Fin.ext (by
    match a with
    | ⟨0, _⟩ => exact (agg_rhs_row _ _).trans hk
    | ⟨1, _⟩ => exact agg_rhs_col _ _)
  rw [el, er]

/-- One accumulation step at (p, q): what was there plus the block product. -/
theorem acc_step_apply (a : Vec Ideal S1024x2048 .f32) (s : Vec Ideal S2048x64 .f32) (prev : Vec Ideal S1024x64 .f32)
    (p : Fin 1024) (q : Fin 64) :
    k1_pay2 a s prev (ix2 p q) = prev (ix2 p q) + ∑ k : Fin 2048, a (ix2 p k) * s (ix2 k q) := by
  unfold k1_pay2
  show shapeCast S1024x64 (addf prev (matmul dot_S1024x2048_S2048x64_S1024x64_1_0_0_1_n_n none (truncf .bf16 a bitsLt_bf16_f32)
    (truncf .bf16 (shapeCast S2048x64 s shapeCasts_S2048x64_S2048x64) bitsLt_bf16_f32) (constant (F := Ideal) S1024x64 .f32 0x00000000#32))) shapeCasts_S1024x64_S1024x64 (ix2 p q) = _
  rw [shapeCast_self, shapeCast_self]
  show prev (ix2 p q) + matmul dot_S1024x2048_S2048x64_S1024x64_1_0_0_1_n_n none (truncf .bf16 a bitsLt_bf16_f32)
    (truncf .bf16 s bitsLt_bf16_f32) (constant (F := Ideal) S1024x64 .f32 0x00000000#32) (ix2 p q) = _
  rw [block_product_apply]
  rfl

/-- The stored block at (p, q): accumulator plus the row block of support plus the bias, clamped below at the zero word. -/
theorem stored_block_apply (acc : Vec Ideal S1024x64 .f32) (sm : Vec Ideal S1024x64 .f32) (b : Vec Ideal S1x64 .f32)
    (p : Fin 1024) (q : Fin 64) :
    k1_pay3 acc sm b (ix2 p q) = max (acc (ix2 p q) + sm (ix2 p q) + b (ix2 (0 : Fin 1) q)) (Ideal.ofBits .f32 0x00000000#32) := by
  unfold k1_pay3
  show maximumf (addf (addf acc (shapeCast S1024x64 sm shapeCasts_S1024x64_S1024x64))
    (broadcastTo S1024x64 (shapeCast S1x64 b shapeCasts_S1x64_S1x64) broadcasts_S1x64_S1024x64))
    (broadcast S1024x64 (Scalar.ofBits (F := Ideal) .f32 0x00000000#32)) (ix2 p q) = _
  rw [shapeCast_self, shapeCast_self]
  show max (acc (ix2 p q) + sm (ix2 p q) + broadcastTo S1024x64 b broadcasts_S1x64_S1024x64 (ix2 p q)) (Ideal.ofBits .f32 0x00000000#32) = _
  rw [broadcastTo_apply b broadcasts_S1x64_S1024x64 (ix2 p q) (ix2 (0 : Fin 1) q) (fun a => by
    match a with
    | ⟨0, _⟩ => rfl
    | ⟨1, _⟩ => rfl)]

/-! ## The blocks, read off their arrays -/

variable (V : (c : Dev nD) → (b : Ref sig .tc) → Buf (Elt Ideal) ((c : Thread nD τ).loc b))

/-- The index maps over the grid: point t = 8·mb + kb reads block (mb, kb) of adj, blocks kb and mb of the support
    array, the whole bias row, and writes block mb of the result. -/
theorem agg_block_indices : ∀ t : Fin cfg1.N,
    win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = t.val / 8 ∧ win1_2.index t (1 : Fin 2) = 0
    ∧ win1_3.index t (0 : Fin 2) = 0 ∧ win1_3.index t (1 : Fin 2) = 0
    ∧ win1_4.index t (0 : Fin 2) = t.val / 8 ∧ win1_4.index t (1 : Fin 2) = 0 :=
  (by decide +kernel : ∀ t : Fin grid1.N, _)

theorem agg_points : cfg1.N = 128 := N_1

/-- The adj block at point t, at (p, k): adj at row 1024·(t / 8) + p, column 2048·(t % 8) + k. -/
theorem adj_block_read (c : Dev nD) (t : Fin cfg1.N) (p : Fin 1024) (k : Fin 2048) (R : Fin 16384) (K : Fin 16384)
    (hR : R.val = 1024 * (t.val / 8) + p.val) (hK : K.val = 2048 * (t.val % 8) + k.val) :
    iblk1 V c 0 t (ix2 p k) = V c main_arg1 (ix2 R K) := by
  obtain ⟨e0, e1, -⟩ := agg_block_indices t
  unfold iblk1
  show V c main_arg1 (((cfg1.win 0).blk t).view.emb (ix2 p k)) = V c main_arg1 (ix2 R K)
  refine congrArg (V c main_arg1) (funext fun a => Fin.ext ?_)
  match a with
  | ⟨0, _⟩ => show win1_0.index t (0 : Fin 2) * 1024 + 1 * p.val = R.val; omega
  | ⟨1, _⟩ => show win1_0.index t (1 : Fin 2) * 2048 + 1 * k.val = K.val; omega

/-- The contraction block of support at point t, at (k, q): support at row 2048·(t % 8) + k. -/
theorem support_contr_block_read (c : Dev nD) (t : Fin cfg1.N) (k : Fin 2048) (q : Fin 64) (K : Fin 16384)
    (hK : K.val = 2048 * (t.val % 8) + k.val) :
    iblk1 V c 1 t (ix2 k q) = V c main_v0 (ix2 K q) := by
  obtain ⟨-, -, e0, e1, -⟩ := agg_block_indices t
  unfold iblk1
  show V c main_v0 (((cfg1.win 1).blk t).view.emb (ix2 k q)) = V c main_v0 (ix2 K q)
  refine congrArg (V c main_v0) (funext fun a => Fin.ext ?_)
  match a with
  | ⟨0, _⟩ => show win1_1.index t (0 : Fin 2) * 2048 + 1 * k.val = K.val; omega
  | ⟨1, _⟩ => show win1_1.index t (1 : Fin 2) * 64 + 1 * q.val = q.val; omega

/-- The row block of support at point t, at (p, q): support at row 1024·(t / 8) + p. -/
theorem support_row_block_read (c : Dev nD) (t : Fin cfg1.N) (p : Fin 1024) (q : Fin 64) (R : Fin 16384)
    (hR : R.val = 1024 * (t.val / 8) + p.val) :
    iblk1 V c 2 t (ix2 p q) = V c main_v0 (ix2 R q) := by
  obtain ⟨-, -, -, -, e0, e1, -⟩ := agg_block_indices t
  unfold iblk1
  show V c main_v0 (((cfg1.win 2).blk t).view.emb (ix2 p q)) = V c main_v0 (ix2 R q)
  refine congrArg (V c main_v0) (funext fun a => Fin.ext ?_)
  match a with
  | ⟨0, _⟩ => show win1_2.index t (0 : Fin 2) * 1024 + 1 * p.val = R.val; omega
  | ⟨1, _⟩ => show win1_2.index t (1 : Fin 2) * 64 + 1 * q.val = q.val; omega

/-- The bias block at any point is the bias row. -/
theorem bias_block_read (c : Dev nD) (t : Fin cfg1.N) (q : Fin 64) :
    iblk1 V c 3 t (ix2 (0 : Fin 1) q) = V c main_v1 (ix2 (0 : Fin 1) q) := by
  obtain ⟨-, -, -, -, -, -, e0, e1, -⟩ := agg_block_indices t
  unfold iblk1
  show V c main_v1 (((cfg1.win 3).blk t).view.emb (ix2 (0 : Fin 1) q)) = V c main_v1 (ix2 (0 : Fin 1) q)
  refine congrArg (V c main_v1) (funext fun a => Fin.ext ?_)
  match a with
  | ⟨0, _⟩ => show win1_3.index t (0 : Fin 2) * 1 + 1 * 0 = 0; omega
  | ⟨1, _⟩ => show win1_3.index t (1 : Fin 2) * 64 + 1 * q.val = q.val; omega

/-! ## The accumulator along a grid row -/

/-- The arrays the region is entered with, at their literal types: adj, the support array, the bias row. -/
abbrev adjArr (c : Dev nD) : FVec Ideal Cert.Spec.SAdj .f32 := V c main_arg1
abbrev supportArr (c : Dev nD) : FVec Ideal Cert.Spec.SOut .f32 := V c main_v0
abbrev biasArr (c : Dev nD) : FVec Ideal Cert.Spec.SRow .f32 := V c main_v1

/-- The two blocks the product reads at point t, at their literal types. -/
abbrev adjBlock (c : Dev nD) (t : Fin cfg1.N) : FVec Ideal S1024x2048 .f32 := iblk1 V c 0 t
abbrev supportBlock (c : Dev nD) (t : Fin cfg1.N) : FVec Ideal S2048x64 .f32 := iblk1 V c 1 t

/-- The product's term at contraction index k, for output row R and column q, as a function of every natural
    (zero past the array's end). -/
def aggTerm (c : Dev nD) (R : Fin 16384) (q : Fin 64) (k : ℕ) : EReal :=
  if h : k < 16384 then adjArr V c (ix2 R ⟨k, h⟩) * supportArr V c (ix2 ⟨k, h⟩ q) else 0

/-- A term of the block product at point t is the whole product's term at 2048·(t % 8) + k. -/
theorem block_term (c : Dev nD) (t : Fin cfg1.N) (p : Fin 1024) (q : Fin 64) (R : Fin 16384)
    (hR : R.val = 1024 * (t.val / 8) + p.val) (k : Fin 2048) :
    adjBlock V c t (ix2 p k) * supportBlock V c t (ix2 k q) = aggTerm V c R q (2048 * (t.val % 8) + k.val) := by
  have hlt : 2048 * (t.val % 8) + k.val < 16384 := by omega
  unfold aggTerm
  rw [dif_pos hlt]
  exact congrArg₂ (· * ·) (adj_block_read V c t p k R ⟨_, hlt⟩ hR rfl) (support_contr_block_read V c t k q ⟨_, hlt⟩ rfl)

/-- At the first point of a grid row the accumulator holds the first block's terms. -/
theorem acc_first (c : Dev nD) (t : Fin cfg1.N) (h : t.val % 8 = 0) (p : Fin 1024) (q : Fin 64) (R : Fin 16384)
    (hR : R.val = 1024 * (t.val / 8) + p.val) :
    scAt V c t.val t.isLt (ix2 p q) = ∑ k ∈ Finset.range (2048 * (t.val % 8 + 1)), aggTerm V c R q k := by
  rw [scAt_first V c t h, acc_step_apply, acc_fill_apply, zero_add]
  have e : 2048 * (t.val % 8 + 1) = 2048 := by omega
  rw [e, ← Fin.sum_univ_eq_sum_range]
  refine Finset.sum_congr rfl fun k _ => ?_
  refine (block_term V c t p q R hR k).trans ?_
  congr 1
  omega

/-- At a later point of the row it gains the next block's terms. -/
theorem acc_later (c : Dev nD) (t : Fin cfg1.N) (h : ¬ t.val % 8 = 0) (p : Fin 1024) (q : Fin 64) (R : Fin 16384)
    (hR : R.val = 1024 * (t.val / 8) + p.val)
    (ih : scAt V c (t.val - 1) (Nat.lt_of_le_of_lt (Nat.sub_le _ _) t.isLt) (ix2 p q)
      = ∑ k ∈ Finset.range (2048 * ((t.val - 1) % 8 + 1)), aggTerm V c R q k) :
    scAt V c t.val t.isLt (ix2 p q) = ∑ k ∈ Finset.range (2048 * (t.val % 8 + 1)), aggTerm V c R q k := by
  rw [scAt_later V c t h, acc_step_apply, ih]
  have e : 2048 * (t.val % 8 + 1) = 2048 * ((t.val - 1) % 8 + 1) + 2048 := by omega
  rw [e, Finset.sum_range_add]
  congr 1
  rw [← Fin.sum_univ_eq_sum_range (fun x => aggTerm V c R q (2048 * ((t.val - 1) % 8 + 1) + x))]
  refine Finset.sum_congr rfl fun k _ => ?_
  refine (block_term V c t p q R hR k).trans ?_
  congr 1
  omega

/-- After point n = 8·mb + kb the accumulator holds, at (p, q), the product's terms over the first kb + 1 blocks of
    the contraction axis, for output row 1024·mb + p. -/
theorem acc_partial_sum (c : Dev nD) (n : ℕ) : ∀ (hn : n < cfg1.N) (p : Fin 1024) (q : Fin 64) (R : Fin 16384),
    R.val = 1024 * (n / 8) + p.val →
    scAt V c n hn (ix2 p q) = ∑ k ∈ Finset.range (2048 * (n % 8 + 1)), aggTerm V c R q k := by
  induction n with
  | zero => exact fun hn p q R hR => acc_first V c ⟨0, hn⟩ rfl p q R hR
  | succ n ih =>
    intro hn p q R hR
    by_cases h0 : (n + 1) % 8 = 0
    · exact acc_first V c ⟨n + 1, hn⟩ h0 p q R hR
    · exact acc_later V c ⟨n + 1, hn⟩ h0 p q R hR (ih (Nat.lt_of_succ_lt hn) p q R (by omega))

/-- At the last point of a grid row the accumulator holds the whole product. -/
theorem acc_whole_sum (c : Dev nD) (t : Fin cfg1.N) (h7 : t.val % 8 = 7) (p : Fin 1024) (q : Fin 64) (R : Fin 16384)
    (hR : R.val = 1024 * (t.val / 8) + p.val) :
    scAt V c t.val t.isLt (ix2 p q) = ∑ k : Fin 16384, adjArr V c (ix2 R k) * supportArr V c (ix2 k q) := by
  rw [acc_partial_sum V c t.val t.isLt p q R hR, h7]
  show ∑ k ∈ Finset.range 16384, aggTerm V c R q k = _
  rw [← Fin.sum_univ_eq_sum_range]
  refine Finset.sum_congr rfl fun k _ => ?_
  unfold aggTerm
  rw [dif_pos k.isLt]

/-! ## What the last point of a grid row writes back, and the whole array -/

/-- What a flushing point t (t % 8 = 7) writes back is its block of the second stage of the arrays the region was
    entered with. -/
theorem agg_written_block (c : Dev nD) (t : Fin cfg1.N) (hf : (cfg1.win 4).flush t = true) :
    (dat1 (F := Ideal) V c).flushed 4 t
      = ((cfg1.win 4).blk t).view.read (Elt Ideal) (Cert.Spec.agg (V c main_arg1) (V c main_v0) (V c main_v1)) := by
  have h7 : t.val % 8 = 7 := (flush1_4 t).mp hf
  obtain ⟨-, -, -, -, -, -, -, -, e0, e1⟩ := agg_block_indices t
  show (cfg1.win 4).cut (grid1.coords t) ((dat1 (F := Ideal) V c).after 4 t) = _
  rw [after1_4]
  refine funext fun (j : S1024x64.Idx) => ?_
  obtain ⟨p, q, rfl⟩ : ∃ (p : Fin 1024) (q : Fin 64), j = ix2 p q := ⟨j 0, j 1, eq_ix2 j⟩
  have hlt : 1024 * (t.val / 8) + p.val < 16384 := by have := t.isLt; have := agg_points; omega
  have hemb : ((cfg1.win 4).blk t).view.emb (ix2 p q) = (ix2 (⟨1024 * (t.val / 8) + p.val, hlt⟩ : Fin 16384) q : S16384x64.Idx) :=
    funext fun a => Fin.ext (by
      match a with
      | ⟨0, _⟩ => show win1_4.index t (0 : Fin 2) * 1024 + 1 * p.val = 1024 * (t.val / 8) + p.val; omega
      | ⟨1, _⟩ => show win1_4.index t (1 : Fin 2) * 64 + 1 * q.val = q.val; omega)
  show outAt V c t (ix2 p q) = Cert.Spec.agg (V c main_arg1) (V c main_v0) (V c main_v1) (((cfg1.win 4).blk t).view.emb (ix2 p q))
  rw [hemb]
  unfold outAt
  rw [stored_block_apply, acc_whole_sum V c t h7 p q ⟨_, hlt⟩ rfl, support_row_block_read V c t p q ⟨_, hlt⟩ rfl, bias_block_read]
  rfl

/-- An index of the result array is in point t's block iff each coordinate is in the block's range on its axis. -/
theorem mem_agg_block (t : Fin cfg1.N) (i : S16384x64.Idx) :
    i ∈ ((cfg1.win 4).blk t).view.set ↔ ∀ a : Fin 2, win1_4.index t a * S1024x64.size a ≤ (i a).val
      ∧ (i a).val < win1_4.index t a * S1024x64.size a + S1024x64.size a := by
  show i ∈ ((View.whole main_v2).slice (win1_4.rect t)).set ↔ _
  rw [View.set_slice_whole, Rect.mem_set_unit]
  exact Iff.rfl

/-- The 16 blocks written back tile the array: row r lies in the block of the last point of grid row r / 1024. -/
theorem agg_rows_covered (i : S16384x64.Idx) :
    ∃ t : Fin cfg1.N, (cfg1.win 4).flush t = true ∧ i ∈ ((cfg1.win 4).blk t).view.set := by
  have h0 : (i 0).val < 16384 := idx2_lt0 i
  have h1 : (i 1).val < 64 := idx2_lt1 i
  have hN := agg_points
  obtain ⟨t, ht⟩ : ∃ t : Fin cfg1.N, t.val = 8 * ((i 0).val / 1024) + 7 := ⟨⟨8 * ((i 0).val / 1024) + 7, by omega⟩, rfl⟩
  obtain ⟨-, -, -, -, -, -, -, -, e0, e1⟩ := agg_block_indices t
  refine ⟨t, (flush1_4 t).mpr (by omega), ?_⟩
  rw [mem_agg_block]
  intro a
  match a with
  | ⟨0, _⟩ =>
    show win1_4.index t (0 : Fin 2) * 1024 ≤ (i 0).val ∧ (i 0).val < win1_4.index t (0 : Fin 2) * 1024 + 1024
    omega
  | ⟨1, _⟩ =>
    show win1_4.index t (1 : Fin 2) * 64 ≤ (i 1).val ∧ (i 1).val < win1_4.index t (1 : Fin 2) * 64 + 64
    omega

/-- After the region's last point the result array is `Cert.Spec.agg` of the arrays the region was entered with:
    adj, the support array (read through two windows), and the bias row. -/
theorem agg_final (c : Dev nD) :
    (dat1 (F := Ideal) V c).arrAt 4 cfg1.N = Cert.Spec.agg (V c main_arg1) (V c main_v0) (V c main_v1) :=
  (dat1 (F := Ideal) V c).arrAt_eq_of_cover 4 _ (fun t hf => agg_written_block V c t hf) agg_rows_covered

end Cert.KernelIdeal.HandValue

end
-- ==== Proof.RefSide.lean ====
/-
  The reference program at the ideal instance computes the layer function `Cert.Spec.G` of its arguments:
  two matrix products read as sums, the two additions, and the clamp at zero, index by index.
  Also here: the one host operation of the kernel's program (the bias reshaped to one row) read at an index.
-/
import proofs.«114250_j52536039965101_1_alg».proof.Proof.Gen.ReferenceIdeal.Run
import proofs.«114250_j52536039965101_1_alg».proof.Proof.Gen.ReferenceIdeal.Read
import proofs.«114250_j52536039965101_1_alg».proof.Proof.Spec
import Idealize.ShloMosaic.Lib.Pipeline.Value
import Idealize.ShloMosaic.Lib.ValueLayout

noncomputable section

open scoped BigOperators

namespace Cert.RefValue

open Idealize.ShloMosaic Idealize.ShloMosaic.ValueIdx
open Cert.ReferenceIdeal.Read

/-! ## Where each operation reads its operands, by coordinates -/

/-- Entry (r, j) of adj · support reads adj at (r, k) … -/
theorem lidx_v1_eq (i : Cert.Spec.SOut.Idx) (k : Fin 16384) :
    lidx_main_v1 i k = (ix2 (i 0) k : Cert.Spec.SAdj.Idx) :=
  funext fun a => by match a with | ⟨0, _⟩ => rfl | ⟨1, _⟩ => rfl

/-- … and the support at (k, j). -/
theorem ridx_v1_eq (i : Cert.Spec.SOut.Idx) (k : Fin 16384) :
    ridx_main_v1 i k = (ix2 k (i 1) : Cert.Spec.SOut.Idx) :=
  funext fun a => by match a with | ⟨0, _⟩ => rfl | ⟨1, _⟩ => rfl

/-- Entry (r, j) of x · W reads x at (r, k) … -/
theorem lidx_v0_eq (i : Cert.Spec.SOut.Idx) (k : Fin 256) :
    lidx_main_v0 i k = (ix2 (i 0) k : Cert.Spec.SX.Idx) :=
  funext fun a => by match a with | ⟨0, _⟩ => rfl | ⟨1, _⟩ => rfl

/-- … and W at (k, j). -/
theorem ridx_v0_eq (i : Cert.Spec.SOut.Idx) (k : Fin 256) :
    ridx_main_v0 i k = (ix2 k (i 1) : Cert.Spec.SW.Idx) :=
  funext fun a => by match a with | ⟨0, _⟩ => rfl | ⟨1, _⟩ => rfl

/-- The bias broadcast along the rows reads, at (r, j), the one-row matrix at (0, j). -/
theorem idx_v4_eq (i : Cert.Spec.SOut.Idx) :
    idx_main_v4 i = (ix2 (0 : Fin 1) (i 1) : Cert.Spec.SRow.Idx) :=
  funext fun a => by match a with | ⟨0, _⟩ => rfl | ⟨1, _⟩ => rfl

/-- The one-row matrix reads, at (u, j), the bias at j. -/
theorem idx_v3_eq (j : Cert.Spec.SRow.Idx) :
    idx_main_v3 j = (ix1 (j 1) : Cert.Spec.SB.Idx) :=
  funext fun a => by match a with | ⟨0, _⟩ => rfl

/-! ## The first product is the support array -/

/-- x · W, entry by entry, is the sum over k of x (r, k) · W (k, j). -/
theorem v0_eq_supp (x0 : FVec Ideal Cert.Spec.SX .f32) (x2 : FVec Ideal Cert.Spec.SW .f32) :
    val_main_v0 (F := Ideal) x0 x2 = Cert.Spec.supp x0 x2 := by
  funext i
  rw [val_main_v0_apply]
  unfold Cert.Spec.supp
  refine Finset.sum_congr rfl fun k _ => ?_
  rw [lidx_v0_eq, ridx_v0_eq]

/-! ## The whole reference -/

/-- The reference run's result term is the layer function of the arguments. -/
theorem ref_eq_G (x0 : FVec Ideal Cert.Spec.SX .f32) (x1 : FVec Ideal Cert.Spec.SAdj .f32) (x2 : FVec Ideal Cert.Spec.SW .f32) (x3 : FVec Ideal Cert.Spec.SB .f32) :
    Cert.ReferenceIdeal.Read.val_main_v6 (F := Ideal) x0 x1 x2 x3 = Cert.Spec.G x0 x1 x2 x3 := by
  funext i
  -- entry i, from the outside in: the maximum with zero, the two additions, the second product, the bias broadcast
  -- twice, the zero broadcast; then the first product is the support array
  rw [val_main_v6_apply, val_main_v5_apply, val_main_v2_apply, val_main_v1_apply, val_main_v4_apply,
    val_main_v3_apply, val_main_call0_v0_apply, val_main_call0_cst_apply, v0_eq_supp]
  -- the operations on extended reals, and every operand read at its coordinates; the zero stays the word it is
  simp only [Ideal.maximumf_def, Ideal.addf_def, Ideal.ofBits_def, lidx_v1_eq, ridx_v1_eq, idx_v4_eq, idx_v3_eq]
  -- what is left is the definition of G at i: max (∑ k, adj (r, k) · s (k, j) + s (r, j) + b j) 0
  rfl

/-! ## The bias as one row -/

/-- A vector of 64 entries reshaped to one row of 64 is `Cert.Spec.row` of it. -/
theorem reshape_row (b : FVec Ideal Cert.Spec.SB .f32) (h : Cert.Spec.SB.ShapeCasts Cert.Spec.SRow) :
    shapeCast Cert.Spec.SRow b h = Cert.Spec.row b := by
  funext j
  obtain ⟨u, q, rfl⟩ : ∃ (u : Fin 1) (q : Fin 64), j = ix2 u q := ⟨j 0, j 1, eq_ix2 j⟩
  exact shapeCast_a_1a_apply b h u q

end Cert.RefValue

end
-- ==== Proof.KernelValue.lean ====
/-
  The idealized kernel's result: after the whole run the result array holds the layer function `Cert.Spec.G` of the
  launch contents of x, adj, W and b. The second region leaves `Cert.Spec.agg` of the arrays it was entered with; those
  are adj as launched, the support array as the first region left it (x · W), and the bias reshaped to one row.
-/
import proofs.«114250_j52536039965101_1_alg».proof.Proof.MainRun
import proofs.«114250_j52536039965101_1_alg».proof.Proof.SupportValue
import proofs.«114250_j52536039965101_1_alg».proof.Proof.AggValue
import proofs.«114250_j52536039965101_1_alg».proof.Proof.RefSide

noncomputable section

namespace Cert.KernelIdeal.HandValue

open Cert.KernelIdeal Cert.KernelIdeal.Gen Cert.KernelIdeal.Hand
open Idealize.ShloMosaic Idealize.ShloMosaic.TcCoe Idealize.SL.Sem

variable (m : (ℓ : Loc nD τ sig) → Buf (Elt Ideal) ℓ) (ρ : Dev nD → PrngReg)

/-- The layer function of core c's launch contents. -/
abbrev layer (c : Dev nD) : FVec Ideal Cert.Spec.SOut .f32 :=
  Cert.Spec.G (m ((c : Thread nD τ).loc main_arg0)) (m ((c : Thread nD τ).loc main_arg1))
    (m ((c : Thread nD τ).loc main_arg2)) (m ((c : Thread nD τ).loc main_arg3))

/-- The last boundary's contents at the result array are the layer function of the launch contents. -/
theorem result_eq (c : Dev nD) : W3 (F := Ideal) m ρ c (Proc.devRef .tc main_v2) = layer m c := by
  rw [W3_result, agg_final (V2 m ρ) c, V2_main_arg1, V2_main_v0, support_final (V0 m ρ) c, V2_main_v1,
    Cert.RefValue.reshape_row]
  rfl

/-- The run with its result named: every weakly fair execution terminates with the result array at the layer function
    of the launch contents and every argument as launched. -/
theorem run_value : θ_run defs (onTc (τ := τ) (main (F := Ideal))) ⟨m, fun _ => 0, ρ⟩ (fun r => ∀ c : Dev nD,
      r.2.mem ((c.tc : Thread nD τ).loc main_v2) = layer m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v2 (by decide))).trans (result_eq m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

end Cert.KernelIdeal.HandValue

end
-- ==== Proof.lean ====
/-
  One graph-convolution layer, out = max((adj + I) · (x · W) + b, 0) over f32[16384, 256] × f32[16384, 16384] ×
  f32[256, 64] × f32[64], computed by two chained kernels against the plain array program.

  The kernel program first forms support = x · W in row blocks of 2048, then walks a 16 × 8 grid: along a grid row
  it accumulates adj · support over eight contraction blocks of 2048 in a scratch accumulator that is zeroed at the
  row's first point, and at the row's last point stores max(accumulator + support + b, 0) for the row's 1024 output
  rows. The reference computes max((adj · support + support) + b, 0) with two whole matrix products. On the extended
  reals the two agree index by index: a narrowing to bf16 is the identity, a matrix product into a zero accumulator is
  the plain sum, and the eight partial sums add up to the whole sum because addition on the extended reals is
  associative and commutative; the additions of support and b and the clamp at zero stand in the same order on both
  sides. No distributive law is used, so the finiteness of the inputs is never opened.

  Frames: each kernel program's run is proved once, for any float instance, as @main's three segments (region, one
  host line, region) over thread states that hold every unscoped buffer at named contents; it ends with every unscoped
  buffer at the last boundary's contents, which for the arguments are the launch contents. The reference's frame is its
  generated run with the result dropped. The idealization rewrote no operation, so its statement is trivial.
-/
import proofs.«114250_j52536039965101_1_alg».proof.Defs
import proofs.«114250_j52536039965101_1_alg».proof.Proof.Gen.Kernel
import proofs.«114250_j52536039965101_1_alg».proof.Proof.Gen.KernelIdeal
import proofs.«114250_j52536039965101_1_alg».proof.Proof.Gen.ReferenceIdeal
import proofs.«114250_j52536039965101_1_alg».proof.Proof.Gen.Pre_finite_inputs
import proofs.«114250_j52536039965101_1_alg».proof.Proof.Gen.ReferenceIdeal.Run
import proofs.«114250_j52536039965101_1_alg».proof.Proof.Gen.ReferenceIdeal.Read
import proofs.«114250_j52536039965101_1_alg».proof.Proof.BitsMainRun
import proofs.«114250_j52536039965101_1_alg».proof.Proof.KernelValue
import proofs.«114250_j52536039965101_1_alg».proof.Proof.RefSide
import Idealize.ShloMosaic.Adequacy
import Idealize.ShloMosaic.Init

noncomputable section

namespace Cert.Proof

open Idealize.ShloMosaic Idealize.SL.Sem

/-- The kernel program as printed runs to the end and leaves its arguments as launched. -/
theorem frame_kernel : Cert.frame_Kernel := fun m ρ _ => Cert.Kernel.Hand.frame m ρ

/-- So does its idealization. -/
theorem frame_kernel_ideal : Cert.frame_KernelIdeal := fun m ρ _ => Cert.KernelIdeal.Hand.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the layer function of the arguments in their result arrays. -/
theorem algebraic : Cert.algebraic_KernelIdeal_ReferenceIdeal := by
  intro m ρ m' ρ' _ hagree
  refine ⟨fun c => Cert.KernelIdeal.HandValue.layer m c, Cert.KernelIdeal.HandValue.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2, Cert.ReferenceIdeal.Read.val_main_v6_eq,
    Cert.RefValue.ref_eq_G]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
